-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x20 : Shape := ⟨2, ![320000, 20]⟩
abbrev S2x320000 : Shape := ⟨2, ![2, 320000]⟩
abbrev S128x128 : Shape := ⟨2, ![128, 128]⟩
abbrev S128 : Shape := ⟨1, ![128]⟩
abbrev S20x128 : Shape := ⟨2, ![20, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x20 : S_.BroadcastsInDim S320000x20 (![] : Fin 0 → Fin S320000x20.rank)
  reducesTo_S320000x20_S_d0_1 : S320000x20.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S20x128 : S_.BroadcastsInDim S20x128 (![] : Fin 0 → Fin S20x128.rank)
  reducesTo_S20x128_S_d0_1 : S20x128.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg2 : IVec S2x320000 32) (main_v33 : IVec S_ 1) : IVec S_ 1 :=
  let main_c_12 : IVec S_ 32 := constantI S_ 32 0#32
  let main_v34 : IVec S2x320000 32 := broadcastInDim S2x320000 ![] bcast_S_S2x320000 main_c_12
  let main_v35 : IVec S2x320000 1 := cmpi .sge main_arg2 main_v34
  let main_c_13 : IVec S_ 1 := constantI S_ 1 1#1
  let main_v36 : IVec S_ 1 := (fun x v => Host.reduce IntOp.andi x v reducesTo_S2x320000_S_d0_1 h_S_) main_v35 main_c_13
  let main_v37 : IVec S_ 1 := andi main_v33 main_v36
  let main_c_14 : IVec S_ 32 := constantI S_ 32 10000#32
  let main_v38 : IVec S2x320000 32 := broadcastInDim S2x320000 ![] bcast_S_S2x320000 main_c_14
  let main_v39 : IVec S2x320000 1 := cmpi .slt main_arg2 main_v38
  let main_c_15 : IVec S_ 1 := constantI S_ 1 1#1
  let main_v40 : IVec S_ 1 := (fun x v => Host.reduce IntOp.andi x v reducesTo_S2x320000_S_d0_1 h_S_) main_v39 main_c_15
  let main_v41 : IVec S_ 1 := andi main_v37 main_v40
  main_v41

def fn_part1 {F : FTy → Type} [FloatOps F] (main_arg2 : IVec S2x320000 32) (main_arg5 : FVec F S128x128 .f32) (main_arg6 : FVec F S128 .f32) (main_arg7 : FVec F S20x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S20x128 .f32 := Host.absf main_arg7
  let main_cst_10 : FVec F S_ .f32 := constant S_ .f32 0x7F800000#32
  let main_v30 : FVec F S20x128 .f32 := broadcastInDim S20x128 ![] bcast_S_S20x128 main_cst_10
  let main_v31 : IVec S20x128 1 := cmpf .olt main_v29 main_v30
  let main_c_11 : IVec S_ 1 := constantI S_ 1 1#1
  let main_v32 : IVec S_ 1 := (fun x v => Host.reduce IntOp.andi x v reducesTo_S20x128_S_d0_1 h_S_) main_v31 main_c_11
  let main_v33 : IVec S_ 1 := andi main_v28 main_v32
  fn_part2 (F := F) main_arg2 main_v33

def fn {F : FTy → Type} [FloatOps F] (main_arg0 : FVec F S10000x128 .f32) (main_arg1 : FVec F S320000x20 .f32) (main_arg2 : IVec S2x320000 32) (main_arg3 : FVec F S128x128 .f32) (main_arg4 : FVec F S128 .f32) (main_arg5 : FVec F S128x128 .f32) (main_arg6 : FVec F S128 .f32) (main_arg7 : FVec F S20x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x20 .f32 := Host.absf main_arg1
  let main_cst_0 : FVec F S_ .f32 := constant S_ .f32 0x7F800000#32
  let main_v5 : FVec F S320000x20 .f32 := broadcastInDim S320000x20 ![] bcast_S_S320000x20 main_cst_0
  let main_v6 : IVec S320000x20 1 := cmpf .olt main_v4 main_v5
  let main_c_1 : IVec S_ 1 := constantI S_ 1 1#1
  let main_v7 : IVec S_ 1 := (fun x v => Host.reduce IntOp.andi x v reducesTo_S320000x20_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_v13 main_v16
-- ==== Kernel.lean ====
abbrev S10000x128 : Shape := ⟨2, ![10000, 128]⟩
abbrev S320000x20 : Shape := ⟨2, ![320000, 20]⟩
abbrev S2x320000 : Shape := ⟨2, ![2, 320000]⟩
abbrev S128x128 : Shape := ⟨2, ![128, 128]⟩
abbrev S128 : Shape := ⟨1, ![128]⟩
abbrev S20x128 : Shape := ⟨2, ![20, 128]⟩
abbrev S2000x128 : Shape := ⟨2, ![2000, 128]⟩
abbrev S1x128 : Shape := ⟨2, ![1, 128]⟩
abbrev S_ : Shape := ⟨0, ![]⟩
abbrev S10112x128 : Shape := ⟨2, ![10112, 128]⟩
abbrev S1x320000 : Shape := ⟨2, ![1, 320000]⟩
abbrev S320000 : Shape := ⟨1, ![320000]⟩
abbrev S2500x128 : Shape := ⟨2, ![2500, 128]⟩
abbrev S2500x1x128 : Shape := ⟨3, ![2500, 1, 128]⟩
abbrev S2500x2x128 : Shape := ⟨3, ![2500, 2, 128]⟩
abbrev S640000x1 : Shape := ⟨2, ![640000, 1]⟩
abbrev S320000x128 : Shape := ⟨2, ![320000, 128]⟩
abbrev S512x20 : Shape := ⟨2, ![512, 20]⟩
abbrev S1024x1 : Shape := ⟨2, ![1024, 1]⟩
abbrev S512x128 : Shape := ⟨2, ![512, 128]⟩
abbrev S256x10112 : Shape := ⟨2, ![256, 10112]⟩
abbrev S128x20 : Shape := ⟨2, ![128, 20]⟩
abbrev S256x1 : Shape := ⟨2, ![256, 1]⟩
abbrev S256x128 : Shape := ⟨2, ![256, 128]⟩

abbrev nBuf : Space → Nat
  | .hbm => 24
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S320000x20, .f32⟩
  | .hbm, ⟨2, _⟩ => ⟨S2x320000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S20x128, .f32⟩
  | .hbm, ⟨8, _⟩ => ⟨S10000x128, .f32⟩
  | .hbm, ⟨9, _⟩ => ⟨S_, .i32⟩
  | .hbm, ⟨10, _⟩ => ⟨S_, .f32⟩
  | .hbm, ⟨11, _⟩ => ⟨S10112x128, .f32⟩
  | .hbm, ⟨12, _⟩ => ⟨S10112x128, .bf16⟩
  | .hbm, ⟨13, _⟩ => ⟨S1x320000, .i32⟩
  | .hbm, ⟨14, _⟩ => ⟨S320000, .i32⟩
  | .hbm, ⟨15, _⟩ => ⟨S2500x128, .i32⟩
  | .hbm, ⟨16, _⟩ => ⟨S1x320000, .i32⟩
  | .hbm, ⟨17, _⟩ => ⟨S320000, .i32⟩
  | .hbm, ⟨18, _⟩ => ⟨S2500x128, .i32⟩
  | .hbm, ⟨19, _⟩ => ⟨S2500x1x128, .i32⟩
  | .hbm, ⟨20, _⟩ => ⟨S2500x1x128, .i32⟩
  | .hbm, ⟨21, _⟩ => ⟨S2500x2x128, .i32⟩
  | .hbm, ⟨22, _⟩ => ⟨S640000x1, .i32⟩
  | .hbm, ⟨23, _⟩ => ⟨S320000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S512x20, .f32⟩
  | .local _ .vmem, ⟨9, _⟩ => ⟨S512x20, .f32⟩
  | .local _ .vmem, ⟨10, _⟩ => ⟨S20x128, .f32⟩
  | .local _ .vmem, ⟨11, _⟩ => ⟨S10112x128, .bf16⟩
  | .local _ .vmem, ⟨12, _⟩ => ⟨S1024x1, .i32⟩
  | .local _ .vmem, ⟨13, _⟩ => ⟨S1024x1, .i32⟩
  | .local _ .vmem, ⟨14, _⟩ => ⟨S512x128, .f32⟩
  | .local _ .vmem, ⟨15, _⟩ => ⟨S512x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![625], ![false]⟩

@[reducible] def k1_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c128_i32 : BitVec 32 := 128#32
  let v4 : BitVec 32 := Scalar.muli arg6 c128_i32
  v4
def k1_mult2 (k1_t1 : Fin k1_t1_loop.trips) : BitVec 32 :=
  let c0_i32 : BitVec 32 := 0#32
  let c1_i32 : BitVec 32 := 1#32
  let arg6 : BitVec 32 := Scf.iv c0_i32 c1_i32 k1_t1
  let c256_i32 : BitVec 32 := 256#32
  let v6 : BitVec 32 := Scalar.muli arg6 c256_i32
  v6
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c128_i32 : BitVec 32 := 128#32
  let v4 : BitVec 32 := Scalar.muli arg6 c128_i32
  let v5 : BitVec 32 := v4
  let v8 : Index := Scalar.indexCast v5
  let c0_2 : Index := 0#32
  ![v8.toNat, 0]
def k1_off2 (k1_t1 : Fin k1_t1_loop.trips) : Fin 2 → Nat :=
  let c0_i32 : BitVec 32 := 0#32
  let c1_i32 : BitVec 32 := 1#32
  let arg6 : BitVec 32 := Scf.iv c0_i32 c1_i32 k1_t1
  let c256_i32 : BitVec 32 := 256#32
  let v6 : BitVec 32 := Scalar.muli arg6 c256_i32
  let v7 : BitVec 32 := v6
  let v12 : Index := Scalar.indexCast v7
  let c0_3 : Index := 0#32
  ![v12.toNat, 0]
def k1_off3 (k1_t1 : Fin k1_t1_loop.trips) : Fin 2 → Nat :=
  let c0_i32 : BitVec 32 := 0#32
  let c1_i32 : BitVec 32 := 1#32
  let arg6 : BitVec 32 := Scf.iv c0_i32 c1_i32 k1_t1
  let c128_i32 : BitVec 32 := 128#32
  let v4 : BitVec 32 := Scalar.muli arg6 c128_i32
  let v5 : BitVec 32 := v4
  let v28 : Index := Scalar.indexCast v5
  let c0_9 : Index := 0#32
  ![v28.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S20x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10112x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  pads_S10000x128_S10112x128_01120_000 : S10000x128.Pads (![0, 0] : Fin 2 → Nat) ![112, 0] ![0, 0] S10112x128
  h_S_ : 0 < S_.numel
  slices_S2x320000_S1x320000_0_0 : S2x320000.Slices ![0, 0] S1x320000
  shapeCasts_S1x320000_S320000 : S1x320000.ShapeCasts S320000
  shapeCasts_S320000_S2500x128 : S320000.ShapeCasts S2500x128
  slices_S2x320000_S1x320000_1_0 : S2x320000.Slices ![1, 0] S1x320000
  bcast_S2500x128_S2500x1x128_0_2 : S2500x128.BroadcastsInDim S2500x1x128 (![0, 2] : Fin 2 → Fin S2500x1x128.rank)
  concatenates_S2500x1x128_S2500x1x128_S2500x2x128_d1 : Shape.Concatenates [S2500x1x128, S2500x1x128] S2500x2x128 1
  shapeCasts_S2500x2x128_S640000x1 : S2500x2x128.ShapeCasts S640000x1
  inb_S20x128_S20x128_0_0 : ∀ a, (![0, 0] : Fin 2 → Nat) a + S20x128.size a ≤ S20x128.size a
  h_S20x128 : 0 < S20x128.numel
  iota_S256x10112_d1_w32 : S256x10112.Iotas .tc 32 [1]
  h_S128x20 : 0 < S128x20.numel
  h_S256x1 : 0 < S256x1.numel
  shapeCasts_S256x1_S256x1 : S256x1.ShapeCasts S256x1
  broadcasts_S256x1_S256x10112 : S256x1.Broadcasts S256x10112
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  slices_S256x128_o0_0_S128x128 : S256x128.Slices ![0, 0] S128x128
  slices_S256x128_o128_0_S128x128 : S256x128.Slices ![128, 0] S128x128
  dot_S2000x128_S128x128_S2000x128_1_0_0_1_n_n_wf : DotDims.WF S2000x128 S128x128 S2000x128 [1] [0] [0] [1] [] []
  dot_S128x20_S20x128_S128x128_1_0_0_1_n_n_wf : DotDims.WF S128x20 S20x128 S128x128 [1] [0] [0] [1] [] []
  dot_S256x10112_S10112x128_S256x128_1_0_0_1_n_n_wf : DotDims.WF S256x10112 S10112x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_mult2_dvd : ∀ k1_t1 : Fin k1_t1_loop.trips, 256 ∣ (k1_mult2 k1_t1).toNat
  k1_off1_inb : ∀ k1_t1 : Fin k1_t1_loop.trips, ∀ a, (k1_off1 k1_t1) a + S128x20.size a ≤ S512x20.size a
  k1_off2_inb : ∀ k1_t1 : Fin k1_t1_loop.trips, ∀ a, (k1_off2 k1_t1) a + S256x1.size a ≤ S1024x1.size a
  k1_off3_inb : ∀ k1_t1 : Fin k1_t1_loop.trips, ∀ a, (k1_off3 k1_t1) a + S128x128.size a ≤ S512x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x20.size a ≤ S320000x20.size a
  hwx1_0 : ∀ i : grid1.Coords, EltTy.bits .f32 = 32 ∨ (Rect.block (s := S320000x20) S512x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S20x128.size a ≤ S20x128.size a
  hwx1_1 : ∀ i : grid1.Coords, EltTy.bits .f32 = 32 ∨ (Rect.block (s := S20x128) S20x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10112x128.size a ≤ S10112x128.size a
  hwx1_2 : ∀ i : grid1.Coords, EltTy.bits .bf16 = 32 ∨ (Rect.block (s := S10112x128) S10112x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S640000x1.size a
  hwx1_3 : ∀ i : grid1.Coords, EltTy.bits .i32 = 32 ∨ (Rect.block (s := S640000x1) S1024x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S320000x128.size a
  hwx1_4 : ∀ i : grid1.Coords, EltTy.bits .f32 = 32 ∨ (Rect.block (s := S320000x128) S512x128.size (cc1_transform_4 i) (hinb1_4 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S128x20_S20x128_S128x128_1_0_0_1_n_n : DotDims S128x20 S20x128 S128x128 where
  lhsContracting := [1]
  rhsContracting := [0]
  lhsNonContracting := [0]
  rhsNonContracting := [1]
  lhsBatch := []
  rhsBatch := []
  wf := dot_S128x20_S20x128_S128x128_1_0_0_1_n_n_wf
def dot_S256x10112_S10112x128_S256x128_1_0_0_1_n_n : DotDims S256x10112 S10112x128 S256x128 where
  lhsContracting := [1]
  rhsContracting := [0]
  lhsNonContracting := [0]
  rhsNonContracting := [1]
  lhsBatch := []
  rhsBatch := []
  wf := dot_S256x10112_S10112x128_S256x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S512x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S20x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S10112x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S320000x20 : Shape := ⟨2, ![320000, 20]⟩
abbrev S2x320000 : Shape := ⟨2, ![2, 320000]⟩
abbrev S128x128 : Shape := ⟨2, ![128, 128]⟩
abbrev S128 : Shape := ⟨1, ![128]⟩
abbrev S20x128 : Shape := ⟨2, ![20, 128]⟩
abbrev S1x128 : Shape := ⟨2, ![1, 128]⟩
abbrev S_ : Shape := ⟨0, ![]⟩
abbrev S320000x128 : Shape := ⟨2, ![320000, 128]⟩
abbrev S1x320000 : Shape := ⟨2, ![1, 320000]⟩
abbrev S320000 : Shape := ⟨1, ![320000]⟩
abbrev S320000x1 : Shape := ⟨2, ![320000, 1]⟩

abbrev nBuf : Space → Nat
  | .hbm => 50
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x20, .f32⟩
  | .hbm, ⟨2, _⟩ => ⟨S2x320000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S20x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S320000x128, .f32⟩
  | .hbm, ⟨26, _⟩ => ⟨S1x320000, .i32⟩
  | .hbm, ⟨27, _⟩ => ⟨S320000, .i32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x128, .f32⟩
  | .hbm, ⟨37, _⟩ => ⟨S1x320000, .i32⟩
  | .hbm, ⟨38, _⟩ => ⟨S320000, .i32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x128, .f32⟩
  | .hbm, ⟨48, _⟩ => ⟨S320000x128, .f32⟩
  | .hbm, ⟨49, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_1_0 : S2x320000.Slices ![1, 0] S1x320000
  dot_S10000x128_S128x128_S10000x128_1_0_0_1_n_n_wf : DotDims.WF S10000x128 S128x128 S10000x128 [1] [0] [0] [1] [] []
  dot_S320000x20_S20x128_S320000x128_1_0_0_1_n_n_wf : DotDims.WF S320000x20 S20x128 S320000x128 [1] [0] [0] [1] [] []
  gather_S10000x128_S320000x1_S320000x128_1_0_n_n_0_1_1128_wf : GatherDims.WF S10000x128 S320000x1 S320000x128 [1] [0] [] [0] [] 1 ![1, 128]

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S320000x20_S20x128_S320000x128_1_0_0_1_n_n : DotDims S320000x20 S20x128 S320000x128 where
  lhsContracting := [1]
  rhsContracting := [0]
  lhsNonContracting := [0]
  rhsNonContracting := [1]
  lhsBatch := []
  rhsBatch := []
  wf := dot_S320000x20_S20x128_S320000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf

class Facts : Prop extends Facts₀ where

variable [Facts]
-- ==== Proof.LibPlainDot.lean ====
/-
  A plain matrix product read at an index, on the extended reals.

  For the dimension numbers "rows × contraction by contraction × columns" (no batch axis), both the vector unit's
  product into a zero accumulator and the host's product are, at output index (r, c), the sum over the contraction
  coordinate k of lhs (r, k) · rhs (k, c). Also: a sum against an indicator picks out one term.
-/
import Idealize.ShloMosaic.PureOps.Ideal
import Idealize.ShloMosaic.PureOps.Ideal.Laws
import Idealize.ShloMosaic.Lib.ValueIdx

noncomputable section

open scoped BigOperators

namespace PlainDot

open Idealize.ShloMosaic Idealize.ShloMosaic.ValueIdx

variable {M K N : Nat}

/-- The left operand's index at output index `j` and contraction index `q`: row of `j`, … -/
theorem lhs_0 (j : (⟨2, ![M, N]⟩ : Shape).Idx) (q : (DotDims.plain M K N).contr.Idx) :
    ((DotDims.plain M K N).lhsIdx j q 0).val = (j 0).val := rfl
/-- … column `q`. -/
theorem lhs_1 (j : (⟨2, ![M, N]⟩ : Shape).Idx) (q : (DotDims.plain M K N).contr.Idx) :
    ((DotDims.plain M K N).lhsIdx j q 1).val = (q ⟨0, Nat.one_pos⟩).val := rfl
/-- The right operand's index: row `q`, … -/
theorem rhs_0 (j : (⟨2, ![M, N]⟩ : Shape).Idx) (q : (DotDims.plain M K N).contr.Idx) :
    ((DotDims.plain M K N).rhsIdx j q 0).val = (q ⟨0, Nat.one_pos⟩).val := rfl
/-- … column of `j`. -/
theorem rhs_1 (j : (⟨2, ![M, N]⟩ : Shape).Idx) (q : (DotDims.plain M K N).contr.Idx) :
    ((DotDims.plain M K N).rhsIdx j q 1).val = (j 1).val := rfl

/-- The contraction sum of a plain product, re-indexed by the contraction coordinate. -/
theorem sum_contr (lhs : (⟨2, ![M, K]⟩ : Shape).Idx → EReal) (rhs : (⟨2, ![K, N]⟩ : Shape).Idx → EReal)
    (j : (⟨2, ![M, N]⟩ : Shape).Idx) :
    (∑ q : (DotDims.plain M K N).contr.Idx, lhs ((DotDims.plain M K N).lhsIdx j q) * rhs ((DotDims.plain M K N).rhsIdx j q))
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_0 _ _
      | ⟨1, _⟩ => exact (lhs_1 _ _).trans hk)
  have er : (DotDims.plain M K N).rhsIdx j ((contrEquiv1 (DotDims.plain M K N) K rfl rfl).symm k) = ix2 k (j 1) :=
    funext fun a => Fin.ext (by
      match a with
      | ⟨0, _⟩ => exact (rhs_0 _ _).trans hk
      | ⟨1, _⟩ => exact rhs_1 _ _)
  exact congrArg₂ (· * ·) (congrArg lhs el) (congrArg rhs er)

/-- The vector unit's product into a zero accumulator, at an index. -/
theorem matmul_zero_apply {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) :
    matmul (DotDims.plain M K N) prec lhs rhs (constant (F := Ideal) ⟨2, ![M, N]⟩ .f32 0x00000000#32) j
      = ∑ k : Fin K, lhs (ix2 (j 0) k) * rhs (ix2 k (j 1)) := by
  show FloatOps.matmul (DotDims.plain M K N) prec lhs rhs (constant ⟨2, ![M, N]⟩ .f32 0x00000000#32) j = _
  rw [Ideal.matmul_constant_zero_apply]
  exact sum_contr lhs rhs j

/-- The host's product, at an index. -/
theorem dotGeneral_apply {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) :
    Host.dotGeneral (DotDims.plain M K N) prec lhs rhs j
      = ∑ k : Fin K, lhs (ix2 (j 0) k) * rhs (ix2 k (j 1)) := by
  simp only [Host.dotGeneral]
  rw [Ideal.dotGeneral_apply]
  exact sum_contr lhs rhs j

/-- A sum against the indicator of one index is that index's term (on the extended reals `0 · x = 0` for every `x`). -/
theorem sum_indicator_mul {n : Nat} (a : Fin n) (T : Fin n → EReal) :
    (∑ k : Fin n, (if k = a then (1 : EReal) else 0) * T k) = T a := by
  rw [Finset.sum_eq_single a]
  · rw [if_pos rfl, one_mul]
  · intro b _ hb; rw [if_neg hb, zero_mul]
  · intro h; exact absurd (Finset.mem_univ a) h

/-- A sum against an indicator that is nowhere set is zero. -/
theorem sum_indicator_none {n : Nat} (p : Fin n → Prop) [DecidablePred p] (hp : ∀ k, ¬ p k) (T : Fin n → EReal) :
    (∑ k : Fin n, (if p k then (1 : EReal) else 0) * T k) = 0 :=
  Finset.sum_eq_zero fun k _ => by rw [if_neg (hp k), zero_mul]

end PlainDot

end
-- ==== Proof.Spec.lean ====
/-
  The edge-interaction network as functions of its argument arrays, on the extended reals.

  Nodes: a two-layer perceptron with the SiLU nonlinearity, `node n f = Σₖ silu (Σⱼ x[n,j]·W1[j,k] + b1[k]) · W2[k,f] + b2[f]`.
  Edges: `out e f = (Σⱼ dist[e,j]·We[j,f]) · node (src e) f · node (dst e) f`, where `src e`, `dst e` are the two rows of
  the integer array `E` at column `e`.

  Two readings of the gather are related here. The direct one reads row `E[h,e]` of the node array. The other pads the
  node array with zero rows to 10112 rows, lays the indices out in one column in which every run of 128 source indices is
  followed by the 128 destination indices of the same edges, and reads a row by a sum against the indicator of its index
  ("one-hot" product). When every index is below 10000 the two agree: the indicator sum has exactly one term, and on the
  extended reals `0 · x = 0` for every `x`, so no finiteness is needed.
-/
import proofs.«414239_j6210522710114_3_alg».proof.Proof.LibPlainDot

noncomputable section

open scoped BigOperators

namespace EdgeNet

open Idealize.ShloMosaic Idealize.ShloMosaic.ValueIdx

/-- A matrix of extended reals, a vector of them, a matrix of 32-bit words. -/
abbrev Mat (a b : Nat) := (⟨2, ![a, b]⟩ : Shape).Idx → EReal
abbrev Vec1 (a : Nat) := (⟨1, ![a]⟩ : Shape).Idx → EReal
abbrev IMat (a b : Nat) := (⟨2, ![a, b]⟩ : Shape).Idx → BitVec 32

/-- `silu h = h · σ(h)`, with `σ` the logistic function `1 / (1 + e^(-h))`. -/
def silu (h : EReal) : EReal := h * Ideal.logistic h

/-- The first layer before the nonlinearity. -/
def hidden (x : Mat 10000 128) (W1 : Mat 128 128) (b1 : Vec1 128) (n : Fin 10000) (k : Fin 128) : EReal :=
  (∑ j : Fin 128, x (ix2 n j) * W1 (ix2 j k)) + b1 (ix1 k)

/-- The node perceptron. -/
def node (x : Mat 10000 128) (W1 : Mat 128 128) (b1 : Vec1 128) (W2 : Mat 128 128) (b2 : Vec1 128)
    (n : Fin 10000) (f : Fin 128) : EReal :=
  (∑ k : Fin 128, silu (hidden x W1 b1 n k) * W2 (ix2 k f)) + b2 (ix1 f)

/-- The node perceptron as an array. -/
def nodeArr (x : Mat 10000 128) (W1 : Mat 128 128) (b1 : Vec1 128) (W2 : Mat 128 128) (b2 : Vec1 128) : Mat 10000 128 :=
  fun i => node x W1 b1 W2 b2 (i 0) (i 1)

/-- The edge features' linear map. -/
def edgeLin (d : Mat 320000 20) (We : Mat 20 128) (e : Fin 320000) (f : Fin 128) : EReal :=
  ∑ j : Fin 20, d (ix2 e j) * We (ix2 j f)

/-- The row of the node array a word names (made total by reducing modulo the row count). -/
def rowOf (w : BitVec 32) : Fin 10000 := ⟨w.toNat % 10000, Nat.mod_lt _ (by decide)⟩

/-- THE RESULT at edge `e`, feature `f`: the edge map times the source node's and the destination node's features. -/
def Gat (x : Mat 10000 128) (d : Mat 320000 20) (E : IMat 2 320000) (W1 : Mat 128 128) (b1 : Vec1 128)
    (W2 : Mat 128 128) (b2 : Vec1 128) (We : Mat 20 128) (e : Fin 320000) (f : Fin 128) : EReal :=
  edgeLin d We e f
    * node x W1 b1 W2 b2 (rowOf (E (ix2 0 e))) f
    * node x W1 b1 W2 b2 (rowOf (E (ix2 1 e))) f

/-- THE RESULT as an array. -/
def G (x : Mat 10000 128) (d : Mat 320000 20) (E : IMat 2 320000) (W1 : Mat 128 128) (b1 : Vec1 128)
    (W2 : Mat 128 128) (b2 : Vec1 128) (We : Mat 20 128) : Mat 320000 128 :=
  fun i => Gat x d E W1 b1 W2 b2 We (i 0) (i 1)

/-! ## The padded table, the stacked index column, the one-hot read -/

/-- A 10000-row array padded with zero rows to 10112 rows. -/
def padTable (T : Mat 10000 128) : Mat 10112 128 :=
  fun i => if h : (i 0).val < 10000 then T (ix2 ⟨(i 0).val, h⟩ (i 1)) else 0

/-- The two index rows in one column: position `256·s + 128·h + l` holds `E[h, 128·s + l]`. -/
def stackIdx (E : IMat 2 320000) : IMat 640000 1 :=
  fun i => E (ix2 ⟨((i 0).val / 128) % 2, Nat.mod_lt _ (by decide)⟩
    ⟨((i 0).val / 256) * 128 + (i 0).val % 128, by have := idx2_lt0 i; omega⟩)

/-- A row read by the indicator of its index: `Σₙ [w = n] · T[n, f]`. -/
def pick (T : Mat 10112 128) (w : BitVec 32) (f : Fin 128) : EReal :=
  ∑ n : Fin 10112, (if w = BitVec.ofNat 32 n.val then (1 : EReal) else 0) * T (ix2 n f)

/-- The edge stage over a padded table and a stacked index column. -/
def edgeAt (d : Mat 320000 20) (We : Mat 20 128) (T : Mat 10112 128) (S : IMat 640000 1)
    (e : Fin 320000) (f : Fin 128) : EReal :=
  edgeLin d We e f
    * pick T (S (ix2 ⟨256 * (e.val / 128) + e.val % 128, by have := e.isLt; omega⟩ 0)) f
    * pick T (S (ix2 ⟨256 * (e.val / 128) + 128 + e.val % 128, by have := e.isLt; omega⟩ 0)) f

def edgeArr (d : Mat 320000 20) (We : Mat 20 128) (T : Mat 10112 128) (S : IMat 640000 1) : Mat 320000 128 :=
  fun i => edgeAt d We T S (i 0) (i 1)

/-- One 512-edge block of the edge stage, from the block's 512 feature rows `x0`, the edge weights `x1`, the whole
    padded table `x2` and the block's 1024 stacked indices `x3`: row `r` of the block reads its source index at position
    `256·(r / 128) + r % 128` of `x3` and its destination index 128 positions further. -/
def edgeBlockAt (x0 : Mat 512 20) (x1 : Mat 20 128) (x2 : Mat 10112 128) (x3 : IMat 1024 1) (r : Fin 512) (f : Fin 128) : EReal :=
  (∑ j : Fin 20, x0 (ix2 r j) * x1 (ix2 j f))
    * pick x2 (x3 (ix2 ⟨256 * (r.val / 128) + r.val % 128, by have := r.isLt; omega⟩ 0)) f
    * pick x2 (x3 (ix2 ⟨256 * (r.val / 128) + 128 + r.val % 128, by have := r.isLt; omega⟩ 0)) f

def edgeBlock (x0 : Mat 512 20) (x1 : Mat 20 128) (x2 : Mat 10112 128) (x3 : IMat 1024 1) : Mat 512 128 :=
  fun y => edgeBlockAt x0 x1 x2 x3 (y 0) (y 1)

/-- The indicator read of the padded table at a word below 10000 is that row of the table. -/
theorem pick_padTable (T : Mat 10000 128) (w : BitVec 32) (hw : w.toNat < 10000) (f : Fin 128) :
    pick (padTable T) w f = T (ix2 (rowOf w) f) := by
  unfold pick
  have hn : ∀ n : Fin 10112, (w = BitVec.ofNat 32 n.val) ↔ n = ⟨w.toNat, by omega⟩ := by
    intro n
    constructor
    · intro h
      apply Fin.ext
      show n.val = w.toNat
      have hlt := n.isLt
      have h2 : w.toNat = n.val % 2 ^ 32 := by rw [h, BitVec.toNat_ofNat]
      omega
    · intro h
      subst h
      apply BitVec.eq_of_toNat_eq
      rw [BitVec.toNat_ofNat]
      show w.toNat = w.toNat % 2 ^ 32
      have := w.isLt
      omega
  simp only [hn]
  rw [PlainDot.sum_indicator_mul ⟨w.toNat, by omega⟩ (fun n => padTable T (ix2 n f))]
  unfold padTable
  show (if h : w.toNat < 10000 then T (ix2 ⟨w.toNat, h⟩ f) else 0) = _
  rw [dif_pos hw]
  congr 1
  unfold rowOf
  funext a
  match a with
  | ⟨0, _⟩ => exact Fin.ext (Nat.mod_eq_of_lt hw).symm
  | ⟨1, _⟩ => rfl

/-- The stacked column at the source position of edge `e` is `E[0, e]`, at the destination position `E[1, e]`. -/
theorem stackIdx_src (E : IMat 2 320000) (e : Fin 320000) :
    stackIdx E (ix2 ⟨256 * (e.val / 128) + e.val % 128, by have := e.isLt; omega⟩ 0) = E (ix2 0 e) := by
  unfold stackIdx
  congr 1
  funext a
  match a with
  | ⟨0, _⟩ => apply Fin.ext; show ((256 * (e.val / 128) + e.val % 128) / 128) % 2 = 0; omega
  | ⟨1, _⟩ => apply Fin.ext; show ((256 * (e.val / 128) + e.val % 128) / 256) * 128 + (256 * (e.val / 128) + e.val % 128) % 128 = e.val; omega

theorem stackIdx_dst (E : IMat 2 320000) (e : Fin 320000) :
    stackIdx E (ix2 ⟨256 * (e.val / 128) + 128 + e.val % 128, by have := e.isLt; omega⟩ 0) = E (ix2 1 e) := by
  unfold stackIdx
  congr 1
  funext a
  match a with
  | ⟨0, _⟩ => apply Fin.ext; show ((256 * (e.val / 128) + 128 + e.val % 128) / 128) % 2 = 1; omega
  | ⟨1, _⟩ => apply Fin.ext; show ((256 * (e.val / 128) + 128 + e.val % 128) / 256) * 128 + (256 * (e.val / 128) + 128 + e.val % 128) % 128 = e.val; omega

/-- With every index below 10000, the one-hot reading over the padded node table and the stacked column is `G`, at
    every edge and feature … -/
theorem edgeAt_eq_Gat (x : Mat 10000 128) (d : Mat 320000 20) (E : IMat 2 320000) (W1 : Mat 128 128) (b1 : Vec1 128)
    (W2 : Mat 128 128) (b2 : Vec1 128) (We : Mat 20 128) (hE : ∀ i, (E i).toNat < 10000) (e : Fin 320000) (f : Fin 128) :
    edgeAt d We (padTable (nodeArr x W1 b1 W2 b2)) (stackIdx E) e f = Gat x d E W1 b1 W2 b2 We e f := by
  unfold edgeAt Gat
  rw [stackIdx_src, stackIdx_dst, pick_padTable _ _ (hE _), pick_padTable _ _ (hE _)]
  rfl

/-- … and as arrays. -/
theorem edgeArr_eq_G (x : Mat 10000 128) (d : Mat 320000 20) (E : IMat 2 320000) (W1 : Mat 128 128) (b1 : Vec1 128)
    (W2 : Mat 128 128) (b2 : Vec1 128) (We : Mat 20 128) (hE : ∀ i, (E i).toNat < 10000) :
    edgeArr d We (padTable (nodeArr x W1 b1 W2 b2)) (stackIdx E) = G x d E W1 b1 W2 b2 We :=
  funext fun i => edgeAt_eq_Gat x d E W1 b1 W2 b2 We hE (i 0) (i 1)

end EdgeNet

end
-- ==== Proof.KBasics.lean ====
/-
  Vocabulary shared by the kernel-side value modules: the type of a region's entry contents at the ideal instance.
-/
import proofs.«414239_j6210522710114_3_alg».proof.Proof.Gen.KernelIdeal.Frame
import proofs.«414239_j6210522710114_3_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- A TensorCore's buffer contents (every reference of every device) at the ideal instance: what a region is entered with. -/
abbrev Vals := (c : Dev nD) → (b : Ref sig .tc) → Buf (Elt Ideal) ((c : Thread nD τ).loc b)

end Cert.KernelIdeal.Hand

end
-- ==== Proof.Region0Value.lean ====
/-
  Region 0 (the node perceptron): after its five grid points the output array holds `EdgeNet.nodeArr` of the region's
  input arrays.

  The region's grid has five points. At point t the body reads rows 2000·t … 2000·t + 1999 of the node features and the
  whole weight and bias arrays, and writes rows 2000·t … 2000·t + 1999 of the output. Its value at row p, column q of a block
  is  Σₖ silu (Σⱼ x[p,j]·W1[j,k] + b1[k]) · W2[k,q] + b2[q]  (at the ideal instance a change of float format is the identity
  and a product into a zero accumulator is the plain sum over the contraction coordinate), which is the perceptron at node
  2000·t + p. The five row blocks tile the 10000 rows: row r lies in the block of point r / 2000.
-/
import proofs.«414239_j6210522710114_3_alg».proof.Proof.KBasics
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

namespace Region0

/-! ## The body's value at an index of a block -/

/-- The zero offsets of a rank-2 and of a rank-1 whole-buffer access. -/
theorem zeros2 : (![0, 0] : Fin 2 → Nat) = fun _ => 0 := funext fun a => by fin_cases a <;> rfl
theorem zeros1 : (![0] : Fin 1 → Nat) = fun _ => 0 := funext fun a => by fin_cases a <;> rfl

/-- A length-128 vector viewed as one row and repeated down 2000 rows reads, at row p and column q, its entry q. -/
theorem rowBias_apply (v : Vec Ideal S128 .f32) (p : Fin 2000) (q : Fin 128) :
    broadcastTo S2000x128 (shapeCast S1x128 v shapeCasts_S128_S1x128) broadcasts_S1x128_S2000x128 (ix2 p q) = v (ix1 q) := by
  refine (broadcastTo_apply _ broadcasts_S1x128_S2000x128 (ix2 p q) (ix2 (0 : Fin 1) q) fun a => ?_).trans ?_
  · match a with
    | ⟨0, _⟩ => rfl
    | ⟨1, _⟩ => rfl
  · refine (shapeCast_addUnit_apply ![128] v shapeCasts_S128_S1x128 (ix2 (0 : Fin 1) q)).trans ?_
    exact congrArg v (funext fun a => by match a with | ⟨0, _⟩ => rfl)

/-- The first layer before the nonlinearity, at row p and column k of a block: Σⱼ x[p,j]·W1[j,k] + b1[k]. -/
theorem firstLayer_apply (v0 : Vec Ideal S2000x128 .f32) (v2 : Vec Ideal S128x128 .f32) (v5 : Vec Ideal S128 .f32)
    (p : Fin 2000) (k : Fin 128) :
    addf (matmul dot_S2000x128_S128x128_S2000x128_1_0_0_1_n_n none (truncf FTy.bf16 v0 bitsLt_bf16_f32)
        (truncf FTy.bf16 v2 bitsLt_bf16_f32) (constant (F := Ideal) S2000x128 FTy.f32 0x00000000#32))
      (broadcastTo S2000x128 (shapeCast S1x128 v5 shapeCasts_S128_S1x128) broadcasts_S1x128_S2000x128) (ix2 p k)
      = (∑ j : Fin 128, v0 (ix2 p j) * v2 (ix2 j k)) + v5 (ix1 k) := by
  rw [addf_apply, rowBias_apply]
  congr 1
  exact PlainDot.matmul_zero_apply (M := 2000) (K := 128) (N := 128) none (truncf FTy.bf16 v0 bitsLt_bf16_f32)
    (truncf FTy.bf16 v2 bitsLt_bf16_f32) (ix2 p k)

/-- The body's value at row p, column q of a block: Σₖ silu (Σⱼ x[p,j]·W1[j,k] + b1[k]) · W2[k,q] + b2[q]. -/
theorem perceptron_apply (v0 : Vec Ideal S2000x128 .f32) (v2 : Vec Ideal S128x128 .f32) (v5 : Vec Ideal S128 .f32)
    (v12 : Vec Ideal S128x128 .f32) (v15 : Vec Ideal S128 .f32) (p : Fin 2000) (q : Fin 128) :
    k0_pay1 (F := Ideal) v0 v2 v5 v12 v15 (ix2 p q)
      = (∑ k : Fin 128, EdgeNet.silu ((∑ j : Fin 128, v0 (ix2 p j) * v2 (ix2 j k)) + v5 (ix1 k)) * v12 (ix2 k q)) + v15 (ix1 q) := by
  unfold k0_pay1
  rw [addf_apply, rowBias_apply]
  congr 1
  refine (PlainDot.matmul_zero_apply (M := 2000) (K := 128) (N := 128) none _ (truncf FTy.bf16 v12 bitsLt_bf16_f32) (ix2 p q)).trans ?_
  refine Finset.sum_congr rfl fun k _ => ?_
  show (_ * Ideal.logistic _) * v12 (ix2 k q) = _
  rw [firstLayer_apply]
  rfl

/-- From 2000 rows of node features starting at row r and the whole weights and biases, the body's value at row p, column q
    is the perceptron at node r + p, feature q. -/
theorem perceptron_rows_apply (A : EdgeNet.Mat 10000 128) (W1 : EdgeNet.Mat 128 128) (b1 : EdgeNet.Vec1 128)
    (W2 : EdgeNet.Mat 128 128) (b2 : EdgeNet.Vec1 128) (x0 : Vec Ideal S2000x128 .f32) (r : Nat) (hr : r + 2000 ≤ 10000)
    (h0 : ∀ (p : Fin 2000) (j : Fin 128), x0 (ix2 p j) = A (ix2 ⟨r + p.val, by have := p.isLt; omega⟩ j))
    (p : Fin 2000) (q : Fin 128) :
    k0_pay1 (F := Ideal) x0 W1 b1 W2 b2 (ix2 p q) = EdgeNet.node A W1 b1 W2 b2 ⟨r + p.val, by have := p.isLt; omega⟩ q := by
  rw [perceptron_apply]
  unfold EdgeNet.node EdgeNet.hidden
  simp only [h0]

/-! ## The blocks the body reads at a point -/

/-- The grid has five points. -/
theorem point_lt (t : Fin cfg0.N) : t.val < 5 := by
  have hN : cfg0.N = 5 := N_0
  have := t.isLt
  omega

/-- The block-index maps over the grid: the two row windows (the node features, the output) are at block (t, 0), the weight
    and bias windows at block 0. -/
theorem blockIndex : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ t.val < 5 :=
  (by decide +kernel : ∀ t : Fin grid0.N, _)

/-- The node-feature window's block at point t is rows 2000·t … 2000·t + 1999 of the node-feature array. -/
theorem featureRows_apply (V : Vals) (c : Dev nD) (t : Fin cfg0.N) (p : Fin 2000) (j : Fin 128) (n : Fin 10000)
    (hn : n.val = 2000 * t.val + p.val) :
    (iblk0 V c 0 t : Vec Ideal S2000x128 .f32) (ix2 p j) = (V c main_arg0 : EdgeNet.Mat 10000 128) (ix2 n j) := by
  obtain ⟨e0, e1, -⟩ := blockIndex t
  unfold iblk0
  rw [View.read_apply]
  show V c main_arg0 _ = V c main_arg0 _
  congr 1
  funext a
  apply Fin.ext
  match a with
  | ⟨0, _⟩ => show win0_0.index t (0 : Fin 2) * 2000 + 1 * p.val = n.val; rw [e0, hn]; omega
  | ⟨1, _⟩ => show win0_0.index t (1 : Fin 2) * 128 + 1 * j.val = j.val; rw [e1]; omega

/-- The first weight window holds its whole array at every point (block index 0), … -/
theorem w1_whole (V : Vals) (c : Dev nD) (t : Fin cfg0.N) :
    (iblk0 V c 1 t : Vec Ideal S128x128 .f32) = (V c main_arg3 : EdgeNet.Mat 128 128) := by
  obtain ⟨-, -, -, -, e0, e1, -⟩ := blockIndex t
  funext y
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- … so does the first bias window, … -/
theorem b1_whole (V : Vals) (c : Dev nD) (t : Fin cfg0.N) :
    (iblk0 V c 2 t : Vec Ideal S128 .f32) = (V c main_arg4 : EdgeNet.Vec1 128) := by
  obtain ⟨-, -, -, -, -, -, e0, -⟩ := blockIndex t
  funext y
  unfold iblk0
  rw [View.read_apply]
  show V c main_arg4 _ = V c main_arg4 _
  congr 1
  funext a
  apply Fin.ext
  match a with
  | ⟨0, _⟩ => show win0_2.index t (0 : Fin 1) * 128 + 1 * (y 0).val = (y 0).val; rw [e0]; omega

/-- … the second weight window, … -/
theorem w2_whole (V : Vals) (c : Dev nD) (t : Fin cfg0.N) :
    (iblk0 V c 3 t : Vec Ideal S128x128 .f32) = (V c main_arg5 : EdgeNet.Mat 128 128) := by
  obtain ⟨-, -, -, -, -, -, -, e0, e1, -⟩ := blockIndex t
  funext y
  unfold iblk0
  rw [View.read_apply]
  show V c main_arg5 _ = V c main_arg5 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- … and the second bias window. -/
theorem b2_whole (V : Vals) (c : Dev nD) (t : Fin cfg0.N) :
    (iblk0 V c 4 t : Vec Ideal S128 .f32) = (V c main_arg6 : EdgeNet.Vec1 128) := by
  obtain ⟨-, -, -, -, -, -, -, -, -, e0, -⟩ := blockIndex t
  funext y
  unfold iblk0
  rw [View.read_apply]
  show V c main_arg6 _ = V c main_arg6 _
  congr 1
  funext a
  apply Fin.ext
  match a with
  | ⟨0, _⟩ => show win0_4.index t (0 : Fin 1) * 128 + 1 * (y 0).val = (y 0).val; rw [e0]; omega

/-! ## From blocks to the array -/

/-- The body's value on point t's blocks, as one function of the block index: the perceptron at node 2000·t + row, feature
    column. -/
theorem perceptron_block (V : Vals) (c : Dev nD) (t : Fin cfg0.N) :
    k0_pay1 (F := Ideal) (iblk0 V c 0 t) (V c main_arg3) (V c main_arg4) (V c main_arg5) (V c main_arg6)
      = fun z : S2000x128.Idx => EdgeNet.node (V c main_arg0) (V c main_arg3) (V c main_arg4) (V c main_arg5) (V c main_arg6)
          ⟨2000 * t.val + (z 0).val, by have := point_lt t; have := idx2_lt0 z; omega⟩ (z 1) := by
  have ht := point_lt t
  funext z
  obtain ⟨p, q, rfl⟩ : ∃ (p : Fin 2000) (q : Fin 128), z = ix2 p q := ⟨z 0, z 1, eq_ix2 z⟩
  exact perceptron_rows_apply (V c main_arg0) (V c main_arg3) (V c main_arg4) (V c main_arg5) (V c main_arg6) (iblk0 V c 0 t)
    (2000 * t.val) (by omega) (fun p j => featureRows_apply V c t p j _ rfl) p q

/-- What point t writes back is block t (rows 2000·t … 2000·t + 1999) of the node perceptron's array. -/
theorem writeback_eq (V : Vals) (c : Dev nD) (t : Fin cfg0.N) :
    (dat0 V c).flushed 5 t = ((cfg0.win 5).blk t).view.read (Elt Ideal)
      (EdgeNet.nodeArr (V c main_arg0) (V c main_arg3) (V c main_arg4) (V c main_arg5) (V c main_arg6)) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x128) zeros2, View.ld_unit_zero (S := S128) zeros1]
  rw [w1_whole V c t, b1_whole V c t, w2_whole V c t, b2_whole V c t, perceptron_block V c t]
  obtain ⟨-, -, e0, e1, -⟩ := blockIndex t
  funext y
  rw [View.read_apply]
  unfold EdgeNet.nodeArr
  show EdgeNet.node _ _ _ _ _ _ _ = EdgeNet.node _ _ _ _ _ _ _
  congr 1
  · apply Fin.ext
    show 2000 * t.val + (y 0).val = win0_5.index t (0 : Fin 2) * 2000 + 1 * (y 0).val
    rw [e0]; omega
  · apply Fin.ext
    show (y 1).val = win0_5.index t (1 : Fin 2) * 128 + 1 * (y 1).val
    rw [e1]; omega

/-- An index of the output array is in point t's block iff each coordinate is in the block's range on its axis. -/
theorem mem_outBlock (t : Fin cfg0.N) (i : S10000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v0).slice (win0_5.rect t)).set ↔ _
  rw [View.set_slice_whole, Rect.mem_set_unit]
  exact Iff.rfl

end Region0

/-- After the five points the output array is the node perceptron of the region's input arrays: every point writes back its
    block of that array, and row r lies in the block of point r / 2000. -/
theorem final0 (V : Vals) (c : Dev nD) :
    (dat0 V c).arrAt 5 cfg0.N = EdgeNet.nodeArr (V c main_arg0) (V c main_arg3) (V c main_arg4) (V c main_arg5) (V c main_arg6) :=
  (dat0 V c).arrAt_eq_of_cover 5
    (EdgeNet.nodeArr (V c main_arg0) (V c main_arg3) (V c main_arg4) (V c main_arg5) (V c main_arg6))
    (fun t _ => Region0.writeback_eq V c t) fun i => by
      have hN : cfg0.N = 5 := N_0
      have hi0 : (i 0).val < 10000 := (i 0).isLt
      have hi1 : (i 1).val < 128 := (i 1).isLt
      refine ⟨⟨(i 0).val / 2000, by omega⟩, flush0_5 _, ?_⟩
      rw [Region0.mem_outBlock]
      obtain ⟨-, -, e0, e1, -⟩ := Region0.blockIndex ⟨(i 0).val / 2000, by omega⟩
      intro a
      match a with
      | ⟨0, _⟩ =>
        show win0_5.index _ (0 : Fin 2) * 2000 ≤ (i 0).val ∧ (i 0).val < win0_5.index _ (0 : Fin 2) * 2000 + 2000
        rw [e0]; show (i 0).val / 2000 * 2000 ≤ (i 0).val ∧ (i 0).val < (i 0).val / 2000 * 2000 + 2000; omega
      | ⟨1, _⟩ =>
        show win0_5.index _ (1 : Fin 2) * 128 ≤ (i 1).val ∧ (i 1).val < win0_5.index _ (1 : Fin 2) * 128 + 128
        rw [e1]; omega

end Cert.KernelIdeal.Hand

end
-- ==== Proof.PayloadEdge.lean ====
/-
  The edge kernel's payload (one 128-row chunk) read at an index.
-/
import proofs.«414239_j6210522710114_3_alg».proof.Proof.KBasics
import Idealize.ShloMosaic.Lib.Pipeline.Value
import Idealize.ShloMosaic.Lib.IdealHost

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- A column of 256 words broadcast along 10112 columns reads, at row `r` and any column, the word of row `r`. -/
theorem bcastCol_apply (w : IVec S256x1 32) (r : Fin 256) (n : Fin 10112) :
    broadcastTo S256x10112 w broadcasts_S256x1_S256x10112 (ix2 r n) = w (ix2 r 0) :=
  broadcastTo_apply w broadcasts_S256x1_S256x10112 (ix2 r n) (ix2 r 0) fun a =>
    match a with
    | ⟨0, _⟩ => rfl
    | ⟨1, _⟩ => rfl

/-- The 256 × 10112 indicator matrix of the index column: row `r` carries a one in the column its word names and zeros
    elsewhere. -/
def payOneHot (v13 : Vec Ideal S256x1 .i32) : FVec Ideal S256x10112 .bf16 :=
  truncf .bf16
    (select
      (cmpi .eq (broadcastTo S256x10112 (shapeCast S256x1 v13 shapeCasts_S256x1_S256x1) broadcasts_S256x1_S256x10112)
        (iota .tc S256x10112 32 [1] iota_S256x10112_d1_w32))
      (broadcast S256x10112 (Scalar.ofBits (F := Ideal) .f32 0x3F800000#32))
      (broadcast S256x10112 (Scalar.ofBits (F := Ideal) .f32 0x00000000#32)))
    bitsLt_bf16_f32

/-- The indicator matrix at row `r`, column `n`: one when the word of row `r` is `n`, zero otherwise. The comparison of
    the broadcast column with the column counter is the equality of the row's word with `n`; the two bit patterns are
    the reals one and zero; the change of format is the identity. -/
theorem payOneHot_apply (v13 : Vec Ideal S256x1 .i32) (r : Fin 256) (n : Fin 10112) :
    payOneHot v13 (ix2 r n) = if v13 (ix2 r 0) = BitVec.ofNat 32 n.val then (1 : EReal) else 0 := by
  show (if IntOp.cmpi .eq
            (broadcastTo S256x10112 (shapeCast S256x1 v13 shapeCasts_S256x1_S256x1) broadcasts_S256x1_S256x10112 (ix2 r n))
            (iota .tc S256x10112 32 [1] iota_S256x10112_d1_w32 (ix2 r n)) = 1#1
        then Ideal.ofBits .f32 0x3F800000#32 else Ideal.ofBits .f32 0x00000000#32) = _
  rw [bcastCol_apply, shapeCast_self, iota_single_apply, Ideal.ofBits_one_f32, Ideal.ofBits_zero_f32]
  show (if IntOp.cmpi .eq (v13 (ix2 r 0)) (BitVec.ofNat 32 n.val) = 1#1 then (1 : EReal) else 0) = _
  by_cases h : v13 (ix2 r 0) = BitVec.ofNat 32 n.val
  · rw [if_pos h, if_pos (IntOp.cmpi_eq.mpr h)]
  · rw [if_neg h, if_neg fun hc => h (IntOp.cmpi_eq.mp hc)]

/-- The indicator matrix times the table, into a zero accumulator: 256 rows, each the indicator read of the table. -/
def payGathered (v13 : Vec Ideal S256x1 .i32) (v21 : Vec Ideal S10112x128 .bf16) : FVec Ideal S256x128 .f32 :=
  matmul (φ₂ := .bf16) dot_S256x10112_S10112x128_S256x128_1_0_0_1_n_n none (payOneHot v13)
    (shapeCast (α := Ideal .bf16) S10112x128 v21 shapeCasts_S10112x128_S10112x128)
    (constant S256x128 .f32 0x00000000#32)

/-- Row `r`, feature `q` of the product is the sum over the 10112 table rows of the indicator times the table entry:
    the indicator read of the table at the word of row `r`. -/
theorem payGathered_apply (v13 : Vec Ideal S256x1 .i32) (v21 : Vec Ideal S10112x128 .bf16) (r : Fin 256) (q : Fin 128) :
    payGathered v13 v21 (ix2 r q) = EdgeNet.pick v21 (v13 (ix2 r 0)) q := by
  unfold payGathered EdgeNet.pick
  rw [show dot_S256x10112_S10112x128_S256x128_1_0_0_1_n_n = DotDims.plain 256 10112 128 from rfl]
  refine (PlainDot.matmul_zero_apply none _ _ (ix2 r q)).trans ?_
  refine Finset.sum_congr rfl fun n _ => ?_
  refine congrArg₂ (· * ·) (payOneHot_apply v13 r n) ?_
  rw [shapeCast_self]

/-- The chunk's 128 × 20 features times the 20 × 128 edge weights, into a zero accumulator. -/
def payLin (v0 : Vec Ideal S20x128 .f32) (v9 : Vec Ideal S128x20 .f32) : FVec Ideal S128x128 .f32 :=
  matmul dot_S128x20_S20x128_S128x128_1_0_0_1_n_n none (truncf .bf16 v9 bitsLt_bf16_f32)
    (truncf .bf16 v0 bitsLt_bf16_f32) (constant S128x128 .f32 0x00000000#32)

/-- The product at row `p`, feature `q`; the change of format of the two factors is the identity. -/
theorem payLin_apply (v0 : Vec Ideal S20x128 .f32) (v9 : Vec Ideal S128x20 .f32) (p q : Fin 128) :
    payLin v0 v9 (ix2 p q) = ∑ j : Fin 20, v9 (ix2 p j) * v0 (ix2 j q) := by
  unfold payLin
  rw [show dot_S128x20_S20x128_S128x128_1_0_0_1_n_n = DotDims.plain 128 20 128 from rfl]
  exact (PlainDot.matmul_zero_apply none _ _ (ix2 p q)).trans (Finset.sum_congr rfl fun k _ => rfl)

/-- Rows 0 … 127 of the 256-row product hold the source reads. -/
theorem paySrc_apply (v13 : Vec Ideal S256x1 .i32) (v21 : Vec Ideal S10112x128 .bf16) (p q : Fin 128) :
    extractStridedSlice S128x128 ![0, 0] (payGathered v13 v21) slices_S256x128_o0_0_S128x128 (ix2 p q)
      = payGathered v13 v21 (ix2 ⟨p.val, by have := p.isLt; omega⟩ q) :=
  extractStridedSlice_apply (s := S256x128) (t := S128x128) ![0, 0] (payGathered v13 v21) slices_S256x128_o0_0_S128x128 (ix2 p q)
    (ix2 ⟨p.val, by have := p.isLt; omega⟩ q) fun a =>
      match a with
      | ⟨0, _⟩ => by show p.val = 0 + p.val; omega
      | ⟨1, _⟩ => by show q.val = 0 + q.val; omega

/-- Rows 128 … 255 hold the destination reads. -/
theorem payDst_apply (v13 : Vec Ideal S256x1 .i32) (v21 : Vec Ideal S10112x128 .bf16) (p q : Fin 128) :
    extractStridedSlice S128x128 ![128, 0] (payGathered v13 v21) slices_S256x128_o128_0_S128x128 (ix2 p q)
      = payGathered v13 v21 (ix2 ⟨128 + p.val, by have := p.isLt; omega⟩ q) :=
  extractStridedSlice_apply (s := S256x128) (t := S128x128) ![128, 0] (payGathered v13 v21) slices_S256x128_o128_0_S128x128 (ix2 p q)
    (ix2 ⟨128 + p.val, by have := p.isLt; omega⟩ q) fun a =>
      match a with
      | ⟨0, _⟩ => by show 128 + p.val = 128 + p.val; rfl
      | ⟨1, _⟩ => by show q.val = 0 + q.val; omega

/-- The payload is the product of the three blocks above, entry by entry. -/
theorem k1_pay1_eq (v0 : Vec Ideal S20x128 .f32) (v9 : Vec Ideal S128x20 .f32) (v13 : Vec Ideal S256x1 .i32)
    (v21 : Vec Ideal S10112x128 .bf16) :
    k1_pay1 (F := Ideal) v0 v9 v13 v21
      = mulf (mulf (payLin v0 v9)
          (extractStridedSlice S128x128 ![0, 0] (payGathered v13 v21) slices_S256x128_o0_0_S128x128))
          (extractStridedSlice S128x128 ![128, 0] (payGathered v13 v21) slices_S256x128_o128_0_S128x128) := rfl

/-- Chunk row `p`, feature `q`: the chunk's edge-linear value times the two one-hot reads of the table, the source index
    at position `p` and the destination index at position `128 + p` of the chunk's 256 stacked indices. -/
theorem k1_pay1_apply (v0 : Vec Ideal S20x128 .f32) (v9 : Vec Ideal S128x20 .f32) (v13 : Vec Ideal S256x1 .i32)
    (v21 : Vec Ideal S10112x128 .bf16) (p : Fin 128) (q : Fin 128) :
    k1_pay1 (F := Ideal) v0 v9 v13 v21 (ix2 p q)
      = (∑ j : Fin 20, v9 (ix2 p j) * v0 (ix2 j q))
        * EdgeNet.pick v21 (v13 (ix2 ⟨p.val, by have := p.isLt; omega⟩ 0)) q
        * EdgeNet.pick v21 (v13 (ix2 ⟨128 + p.val, by have := p.isLt; omega⟩ 0)) q := by
  rw [k1_pay1_eq, mulf_apply, mulf_apply, payLin_apply, paySrc_apply, payDst_apply, payGathered_apply,
    payGathered_apply]

end Cert.KernelIdeal.Hand

end
-- ==== Proof.TripValue.lean ====
/-
  What one run of the edge kernel's body leaves in its output block: the four chunks the loop stores, as one function of
  the body's input blocks.

  Trip k of the loop reads rows 128k … 128k+127 of the feature block, rows 256k … 256k+255 of the stacked index block and
  the whole table, and stores the chunk's payload at rows 128k … 128k+127 of the output block. Row p of chunk k is row
  r = 128k + p of the block, for which r / 128 = k and r % 128 = p, so its source index sits at position 256k + p and its
  destination index at position 256k + 128 + p of the stacked index block: every chunk is a block of the one function
  `EdgeNet.edgeBlock`, and the four chunks tile the output block.
-/
import proofs.«414239_j6210522710114_3_alg».proof.Proof.PayloadEdge
import Idealize.ShloMosaic.Lib.WholeRead

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The arithmetic of one chunk -/

/-- Chunk `k` at row `p`, feature `q`, from any 128 feature rows and 256 stacked indices that are rows `128k + p` of the
    feature block and positions `256k + p` of the index block: the block's function at row `128k + p`. -/
theorem chunk_at (x0 : Vec Ideal S512x20 .f32) (x1 : Vec Ideal S20x128 .f32) (x2 : Vec Ideal S10112x128 .bf16)
    (x3 : Vec Ideal S1024x1 .i32) (k : Nat) (hk : k < 4) (v9 : Vec Ideal S128x20 .f32) (v13 : Vec Ideal S256x1 .i32)
    (h9 : ∀ (p : Fin 128) (j : Fin 20), v9 (ix2 p j) = x0 (ix2 ⟨128 * k + p.val, by have := p.isLt; omega⟩ j))
    (h13 : ∀ p : Fin 256, v13 (ix2 p 0) = x3 (ix2 ⟨256 * k + p.val, by have := p.isLt; omega⟩ 0))
    (p : Fin 128) (q : Fin 128) :
    k1_pay1 (F := Ideal) x1 v9 v13 x2 (ix2 p q)
      = EdgeNet.edgeBlockAt x0 x1 x2 x3 ⟨128 * k + p.val, by have := p.isLt; omega⟩ q := by
  have hp := p.isLt
  -- two positions of the index block with the same value hold the same word
  have hpos : ∀ (a b : Nat) (ha : a < 1024) (hb : b < 1024), a = b →
      x3 (ix2 (⟨a, ha⟩ : Fin 1024) (0 : Fin 1)) = x3 (ix2 (⟨b, hb⟩ : Fin 1024) (0 : Fin 1)) := by
    intro a b ha hb h; subst h; rfl
  have es : (∑ j : Fin 20, v9 (ix2 p j) * x1 (ix2 j q))
      = ∑ j : Fin 20, x0 (ix2 ⟨128 * k + p.val, by omega⟩ j) * x1 (ix2 j q) :=
    Finset.sum_congr rfl fun j _ => by rw [h9]
  have e1 : v13 (ix2 (⟨p.val, by omega⟩ : Fin 256) (0 : Fin 1))
      = x3 (ix2 (⟨256 * ((128 * k + p.val) / 128) + (128 * k + p.val) % 128, by omega⟩ : Fin 1024) (0 : Fin 1)) :=
    (h13 ⟨p.val, by omega⟩).trans (hpos _ _ _ _ (by show 256 * k + p.val = _; omega))
  have e2 : v13 (ix2 (⟨128 + p.val, by omega⟩ : Fin 256) (0 : Fin 1))
      = x3 (ix2 (⟨256 * ((128 * k + p.val) / 128) + 128 + (128 * k + p.val) % 128, by omega⟩ : Fin 1024) (0 : Fin 1)) :=
    (h13 ⟨128 + p.val, by omega⟩).trans (hpos _ _ _ _ (by show 256 * k + (128 + p.val) = _; omega))
  rw [k1_pay1_apply, es, e1, e2]
  rfl

/-! ## What the loads read -/

section Run

variable (c : Dev nD) (i : grid1.Coords) (arg1 : Memref sig .tc .vmem S512x20 .f32) (harg1 : arg1.IsWhole)
    (arg2 : Memref sig .tc .vmem S20x128 .f32) (harg2 : arg2.IsWhole) (arg3 : Memref sig .tc .vmem S10112x128 .bf16) (harg3 : arg3.IsWhole)
    (arg4 : Memref sig .tc .vmem S1024x1 .i32) (harg4 : arg4.IsWhole) (arg5 : Memref sig .tc .vmem S512x128 .f32) (harg5 : arg5.IsWhole)

/-- The zero offsets, as the constant function. -/
theorem off_zero : (![0, 0] : Fin 2 → Nat) = fun _ => 0 := by
  funext a; match a with | ⟨0, _⟩ => rfl | ⟨1, _⟩ => rfl

/-- The load of the whole weight block reads the block. -/
theorem load_weights (x1 : Vec Ideal S20x128 .f32) :
    View.readAt (Elt Ideal) arg2.view (Rect.unit (s := S20x128) ![0, 0] S20x128.size Gen.inb_S20x128_S20x128_0_0).toLoadRect (harg2.unread x1) = x1 := by
  rw [View.readAt_eq_ld, harg2.read_unread, View.ld_unit_zero off_zero]

/-- The load of the whole table reads the table. -/
theorem load_table (x2 : Vec Ideal S10112x128 .bf16) :
    View.readAt (Elt Ideal) arg3.view (Rect.unit (s := S10112x128) ![0, 0] S10112x128.size Gen.inb_S10112x128_S10112x128_0_0).toLoadRect (harg3.unread x2) = x2 := by
  rw [View.readAt_eq_ld, harg3.read_unread, View.ld_unit_zero off_zero]

/-- Trip `k`'s load of 128 feature rows reads rows `128k + p` of the feature block. -/
theorem load_features (x0 : Vec Ideal S512x20 .f32) (k : Fin k1_t1_loop.trips) (hk : k.val < 4) (p : Fin 128) (j : Fin 20) :
    View.readAt (Elt Ideal) arg1.view (Rect.unit (s := S512x20) (k1_off1 k) S128x20.size (Gen.k1_off1_inb k)).toLoadRect (harg1.unread x0) (ix2 p j)
      = x0 (ix2 ⟨128 * k.val + p.val, by have := p.isLt; omega⟩ j) := by
  refine (harg1.readAt_unread x0 _ _).trans (congrArg x0 (funext fun a => Fin.ext ?_))
  match a with
  | ⟨0, _⟩ => show k1_off1 k 0 + 1 * p.val = 128 * k.val + p.val; rw [k1_off1_eq]; show 128 * k.val + 1 * p.val = _; omega
  | ⟨1, _⟩ => show k1_off1 k 1 + 1 * j.val = j.val; rw [k1_off1_eq]; show 0 + 1 * j.val = _; omega

/-- Trip `k`'s load of 256 stacked indices reads positions `256k + p` of the index block. -/
theorem load_indices (x3 : Vec Ideal S1024x1 .i32) (k : Fin k1_t1_loop.trips) (hk : k.val < 4) (p : Fin 256) :
    View.readAt (Elt Ideal) arg4.view (Rect.unit (s := S1024x1) (k1_off2 k) S256x1.size (Gen.k1_off2_inb k)).toLoadRect (harg4.unread x3) (ix2 p 0)
      = x3 (ix2 ⟨256 * k.val + p.val, by have := p.isLt; omega⟩ 0) := by
  refine (harg4.readAt_unread x3 _ _).trans (congrArg x3 (funext fun a => Fin.ext ?_))
  match a with
  | ⟨0, _⟩ => show k1_off2 k 0 + 1 * p.val = 256 * k.val + p.val; rw [k1_off2_eq]; show 256 * k.val + 1 * p.val = _; omega
  | ⟨1, _⟩ => show k1_off2 k 1 + 1 * 0 = 0; rw [k1_off2_eq]; rfl

/-! ## One trip's piece, and the run's piece list -/

/-- Trip `k` stores one piece: at rows `128k …` of the output block, the payload of what it loads. -/
theorem trip_piece (𝒱 : Variants) (bd : Option 𝒱.V) (v0 : Vec Ideal S20x128 .f32) (X_arg1 : BufTy.Contents (Elt Ideal) arg1.view.ty)
    (X_arg3 : BufTy.Contents (Elt Ideal) arg3.view.ty) (X_arg4 : BufTy.Contents (Elt Ideal) arg4.view.ty) (k : Fin k1_t1_loop.trips) :
    tripL_k1_t1 (F := Ideal) 𝒱 c bd i arg1 harg1 arg2 harg2 arg3 harg3 arg4 harg4 arg5 harg5 v0 X_arg1 X_arg3 X_arg4 k
      = [⟨Rect.unit (s := S512x128) (k1_off3 k) S128x128.size (Gen.k1_off3_inb k),
          k1_pay1 v0
            (View.readAt (Elt Ideal) arg1.view (Rect.unit (s := S512x20) (k1_off1 k) S128x20.size (Gen.k1_off1_inb k)).toLoadRect X_arg1)
            (View.readAt (Elt Ideal) arg4.view (Rect.unit (s := S1024x1) (k1_off2 k) S256x1.size (Gen.k1_off2_inb k)).toLoadRect X_arg4)
            (View.readAt (Elt Ideal) arg3.view (Rect.unit (s := S10112x128) ![0, 0] S10112x128.size Gen.inb_S10112x128_S10112x128_0_0).toLoadRect X_arg3)⟩] := by
  unfold tripL_k1_t1 trip_k1_t1
  rfl

/-- The run's pieces are the loop's: the pieces of all its trips, over the weight block loaded before the loop. -/
theorem run_pieces (x0 : Vec Ideal S512x20 .f32) (x1 : Vec Ideal S20x128 .f32) (x2 : Vec Ideal S10112x128 .bf16) (x3 : Vec Ideal S1024x1 .i32) :
    (kernelRun1_A (F := Ideal) c i arg1 harg1 arg2 harg2 arg3 harg3 arg4 harg4 arg5 harg5 x0 x1 x2 x3).1
      = pb_k1_t1 (F := Ideal) Variants.none c none i arg1 harg1 arg2 harg2 arg3 harg3 arg4 harg4 arg5 harg5
          (View.readAt (Elt Ideal) arg2.view (Rect.unit (s := S20x128) ![0, 0] S20x128.size Gen.inb_S20x128_S20x128_0_0).toLoadRect (harg2.unread x1))
          (harg1.unread x0) (harg3.unread x2) (harg4.unread x3) k1_t1_loop.trips := by
  unfold kernelRun1_A
  rfl

end Run

/-! ## Every piece is a block of the one function -/

section Pieces

variable (c : Dev nD) (i : grid1.Coords) (arg1 : Memref sig .tc .vmem S512x20 .f32) (harg1 : arg1.IsWhole)
    (arg2 : Memref sig .tc .vmem S20x128 .f32) (harg2 : arg2.IsWhole) (arg3 : Memref sig .tc .vmem S10112x128 .bf16) (harg3 : arg3.IsWhole)
    (arg4 : Memref sig .tc .vmem S1024x1 .i32) (harg4 : arg4.IsWhole) (arg5 : Memref sig .tc .vmem S512x128 .f32) (harg5 : arg5.IsWhole)
    (x0 : Vec Ideal S512x20 .f32) (x1 : Vec Ideal S20x128 .f32) (x2 : Vec Ideal S10112x128 .bf16) (x3 : Vec Ideal S1024x1 .i32)

/-- Chunk `k`'s payload, at an index of its rectangle, is the block's function at the index's place in the block: the
    rectangle puts local row `p` at block row `128k + p` and keeps the feature coordinate. -/
theorem piece_block (k : Fin k1_t1_loop.trips) (v9 : Vec Ideal S128x20 .f32) (v13 : Vec Ideal S256x1 .i32)
    (h9 : ∀ (p : Fin 128) (j : Fin 20), v9 (ix2 p j) = x0 (ix2 ⟨128 * k.val + p.val, by
      have := p.isLt; have := Nat.lt_of_lt_of_le k.isLt k1_t1_abs.2.1; omega⟩ j))
    (h13 : ∀ p : Fin 256, v13 (ix2 p 0) = x3 (ix2 ⟨256 * k.val + p.val, by
      have := p.isLt; have := Nat.lt_of_lt_of_le k.isLt k1_t1_abs.2.1; omega⟩ 0))
    (x : (Rect.unit (s := S512x128) (k1_off3 k) S128x128.size (Gen.k1_off3_inb k)).shape.Idx) :
    k1_pay1 (F := Ideal) x1 v9 v13 x2 x
      = EdgeNet.edgeBlock x0 x1 x2 x3 ((Rect.unit (s := S512x128) (k1_off3 k) S128x128.size (Gen.k1_off3_inb k)).emb x) := by
  have hk : k.val < 4 := Nat.lt_of_lt_of_le k.isLt k1_t1_abs.2.1
  obtain ⟨p, q, rfl⟩ : ∃ (p : Fin 128) (q : Fin 128), x = ix2 p q := ⟨x 0, x 1, eq_ix2 x⟩
  have hp := p.isLt
  have e0 : (⟨128 * k.val + p.val, by omega⟩ : Fin 512)
      = (Rect.unit (s := S512x128) (k1_off3 k) S128x128.size (Gen.k1_off3_inb k)).emb (ix2 p q) 0 :=
    Fin.ext (by show 128 * k.val + p.val = k1_off3 k 0 + 1 * p.val; rw [k1_off3_eq]; show _ = 128 * k.val + 1 * p.val; omega)
  have e1 : (q : Fin 128) = (Rect.unit (s := S512x128) (k1_off3 k) S128x128.size (Gen.k1_off3_inb k)).emb (ix2 p q) 1 :=
    Fin.ext (by show q.val = k1_off3 k 1 + 1 * q.val; rw [k1_off3_eq]; show _ = 0 + 1 * q.val; omega)
  exact (chunk_at x0 x1 x2 x3 k.val hk v9 v13 h9 h13 p q).trans
    (congrArg₂ (EdgeNet.edgeBlockAt x0 x1 x2 x3) e0 e1)

/-- Every piece of the trips before `n` is a block of the one function (induction over the trips: trip `n` puts its one
    piece in front of the earlier ones). -/
theorem pieces_block : ∀ n, n ≤ k1_t1_loop.trips →
    ∀ pc ∈ pb_k1_t1 (F := Ideal) Variants.none c none i arg1 harg1 arg2 harg2 arg3 harg3 arg4 harg4 arg5 harg5 x1
        (harg1.unread x0) (harg3.unread x2) (harg4.unread x3) n,
      ∀ x : pc.1.shape.Idx, pc.2 x = EdgeNet.edgeBlock x0 x1 x2 x3 (pc.1.emb x) := by
  intro n
  induction n with
  | zero => intro _ pc hpc; exact absurd hpc List.not_mem_nil
  | succ n ih =>
    intro hn pc hpc
    have hlt : n < k1_t1_loop.trips := hn
    have hk : n < 4 := Nat.lt_of_lt_of_le hlt k1_t1_abs.2.1
    rw [show n + 1 = (⟨n, hlt⟩ : Fin k1_t1_loop.trips).val + 1 from rfl, pb_k1_t1_succ, trip_piece, load_table] at hpc
    rcases List.mem_append.mp hpc with h | h
    · obtain rfl := List.mem_singleton.mp h
      intro x
      exact piece_block x0 x1 x2 x3 ⟨n, hlt⟩ _ _
        (fun p j => load_features arg1 harg1 x0 ⟨n, hlt⟩ hk p j)
        (fun p => load_indices arg4 harg4 x3 ⟨n, hlt⟩ hk p) x
    · exact ih (Nat.le_of_lt hlt) pc h

end Pieces

/-! ## The block the run leaves -/

theorem out1_eq (c : Dev nD) (i : grid1.Coords) (arg1 : Memref sig .tc .vmem S512x20 .f32) (harg1 : arg1.IsWhole)
    (arg2 : Memref sig .tc .vmem S20x128 .f32) (harg2 : arg2.IsWhole) (arg3 : Memref sig .tc .vmem S10112x128 .bf16) (harg3 : arg3.IsWhole)
    (arg4 : Memref sig .tc .vmem S1024x1 .i32) (harg4 : arg4.IsWhole) (arg5 : Memref sig .tc .vmem S512x128 .f32) (harg5 : arg5.IsWhole)
    (x0 : Vec Ideal S512x20 .f32) (x1 : Vec Ideal S20x128 .f32) (x2 : Vec Ideal S10112x128 .bf16) (x3 : Vec Ideal S1024x1 .i32) :
    out1_A_4 (F := Ideal) c i arg1 harg1 arg2 harg2 arg3 harg3 arg4 harg4 arg5 harg5 x0 x1 x2 x3 = EdgeNet.edgeBlock x0 x1 x2 x3 := by
  unfold out1_A_4
  rw [View.read_writes_eq_canon _ _ _ (cover1_A_4 c i arg1 harg1 arg2 harg2 arg3 harg3 arg4 harg4 arg5 harg5 x0 x1 x2 x3)]
  funext y
  refine View.canon_apply_of_pieces (EdgeNet.edgeBlock x0 x1 x2 x3) _ ?_ y (cover1_A_4 c i arg1 harg1 arg2 harg2 arg3 harg3 arg4 harg4 arg5 harg5 x0 x1 x2 x3 y)
  rw [run_pieces, load_weights]
  exact pieces_block c i arg1 harg1 arg2 harg2 arg3 harg3 arg4 harg4 arg5 harg5 x0 x1 x2 x3 k1_t1_loop.trips (Nat.le_refl _)

end Cert.KernelIdeal.Hand

end
-- ==== Proof.Region1Value.lean ====
/-
  Region 1 (the edge stage): after its 625 grid points the output array holds `EdgeNet.edgeArr` of the region's input arrays.

  Point `t` reads rows `512·t … 512·t + 511` of the edge features, positions `1024·t … 1024·t + 1023` of the stacked index
  column, the whole weight matrix and the whole padded table, and writes rows `512·t … 512·t + 511` of the output. For an
  edge `e = 512·t + r` with `r < 512`: `256·(e / 128) + e % 128 = 1024·t + 256·(r / 128) + r % 128`, so the positions the
  block reads inside its 1024 indices are the positions the whole-array formula reads in the column. Row `e` of the
  output lies in the block of point `e / 512`, and every point writes its block back, so the blocks cover the array.
-/
import proofs.«414239_j6210522710114_3_alg».proof.Proof.TripValue
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The block index of each window at a point -/

/-- The grid has one axis of 625 points, so a point's one coordinate is the point's number. -/
theorem coord1 (t : Fin cfg1.N) : ((grid1.coords t) 0).val = t.val := by
  have hN : cfg1.N = 625 := N_1
  have ht := t.isLt
  have hs : grid1.stride 0 = 1 := by decide
  show t.val / grid1.stride 0 % 625 = t.val
  rw [hs]; omega

/-- The feature window's block index at point `t` is `(t, 0)`: the 32-bit word of `t < 625` is `t`. -/
theorem idx1_0 (t : Fin cfg1.N) : win1_0.index t (0 : Fin 2) = t.val ∧ win1_0.index t (1 : Fin 2) = 0 := by
  have hN : cfg1.N = 625 := N_1
  have ht := t.isLt
  refine ⟨?_, rfl⟩
  show (BitVec.ofNat 32 ((grid1.coords t) 0).val).toNat = t.val
  rw [coord1, BitVec.toNat_ofNat]; omega

/-- The weight window and the table window stay at block `(0, 0)`. -/
theorem idx1_1 (t : Fin cfg1.N) : win1_1.index t (0 : Fin 2) = 0 ∧ win1_1.index t (1 : Fin 2) = 0 := ⟨rfl, rfl⟩
theorem idx1_2 (t : Fin cfg1.N) : win1_2.index t (0 : Fin 2) = 0 ∧ win1_2.index t (1 : Fin 2) = 0 := ⟨rfl, rfl⟩

/-- The index window's block index at point `t` is `(t, 0)`. -/
theorem idx1_3 (t : Fin cfg1.N) : win1_3.index t (0 : Fin 2) = t.val ∧ win1_3.index t (1 : Fin 2) = 0 := by
  have hN : cfg1.N = 625 := N_1
  have ht := t.isLt
  refine ⟨?_, rfl⟩
  show (BitVec.ofNat 32 ((grid1.coords t) 0).val).toNat = t.val
  rw [coord1, BitVec.toNat_ofNat]; omega

/-- The output window's block index at point `t` is `(t, 0)`. -/
theorem idx1_4 (t : Fin cfg1.N) : win1_4.index t (0 : Fin 2) = t.val ∧ win1_4.index t (1 : Fin 2) = 0 := by
  have hN : cfg1.N = 625 := N_1
  have ht := t.isLt
  refine ⟨?_, rfl⟩
  show (BitVec.ofNat 32 ((grid1.coords t) 0).val).toNat = t.val
  rw [coord1, BitVec.toNat_ofNat]; omega

/-! ## The input arrays and their blocks -/

/-- The region's four input arrays (edge features, edge weights, padded node table, stacked index column), and the
    blocks of them that point `t` reads, each by its literal type. -/
abbrev dArr (V : Vals) (c : Dev nD) : EdgeNet.Mat 320000 20 := V c main_arg1
abbrev wArr (V : Vals) (c : Dev nD) : EdgeNet.Mat 20 128 := V c main_arg7
abbrev tArr (V : Vals) (c : Dev nD) : EdgeNet.Mat 10112 128 := V c main_v2
abbrev sArr (V : Vals) (c : Dev nD) : EdgeNet.IMat 640000 1 := V c main_v12
abbrev dBlk (V : Vals) (c : Dev nD) (t : Fin cfg1.N) : EdgeNet.Mat 512 20 := iblk1 V c 0 t
abbrev wBlk (V : Vals) (c : Dev nD) (t : Fin cfg1.N) : EdgeNet.Mat 20 128 := iblk1 V c 1 t
abbrev tBlk (V : Vals) (c : Dev nD) (t : Fin cfg1.N) : EdgeNet.Mat 10112 128 := iblk1 V c 2 t
abbrev sBlk (V : Vals) (c : Dev nD) (t : Fin cfg1.N) : EdgeNet.IMat 1024 1 := iblk1 V c 3 t

/-- Row `r` of the feature block at point `t` is row `512·t + r` of the feature array: a block's element sits at block
    index × block size + its coordinate inside the block. -/
theorem dBlk_apply (V : Vals) (c : Dev nD) (t : Fin cfg1.N) (r : Fin 512) (j : Fin 20) (e : Fin 320000)
    (he : e.val = 512 * t.val + r.val) : dBlk V c t (ix2 r j) = dArr V c (ix2 e j) := by
  unfold dBlk iblk1
  rw [View.read_apply]
  show V c main_arg1 _ = V c main_arg1 _
  congr 1
  funext a; apply Fin.ext
  match a with
  | ⟨0, _⟩ => show win1_0.index t (0 : Fin 2) * 512 + 1 * r.val = e.val; rw [(idx1_0 t).1, he]; omega
  | ⟨1, _⟩ => show win1_0.index t (1 : Fin 2) * 20 + 1 * j.val = j.val; rw [(idx1_0 t).2]; omega

/-- Position `p` of the index block at point `t` is position `1024·t + p` of the index column. -/
theorem sBlk_apply (V : Vals) (c : Dev nD) (t : Fin cfg1.N) (p : Fin 1024) (q : Fin 640000)
    (hq : q.val = 1024 * t.val + p.val) : sBlk V c t (ix2 p 0) = sArr V c (ix2 q 0) := by
  unfold sBlk iblk1
  rw [View.read_apply]
  show V c main_v12 _ = V c main_v12 _
  congr 1
  funext a; apply Fin.ext
  match a with
  | ⟨0, _⟩ => show win1_3.index t (0 : Fin 2) * 1024 + 1 * p.val = q.val; rw [(idx1_3 t).1, hq]; omega
  | ⟨1, _⟩ => show win1_3.index t (1 : Fin 2) * 1 + 1 * 0 = 0; rw [(idx1_3 t).2]

/-- The weight block is the whole weight matrix at every point. -/
theorem wBlk_eq (V : Vals) (c : Dev nD) (t : Fin cfg1.N) : wBlk V c t = wArr V c := by
  funext y
  unfold wBlk iblk1
  rw [View.read_apply]
  show V c main_arg7 _ = V c main_arg7 _
  congr 1
  funext a; apply Fin.ext
  match a with
  | ⟨0, _⟩ => show win1_1.index t (0 : Fin 2) * 20 + 1 * (y 0).val = (y 0).val; rw [(idx1_1 t).1]; omega
  | ⟨1, _⟩ => show win1_1.index t (1 : Fin 2) * 128 + 1 * (y 1).val = (y 1).val; rw [(idx1_1 t).2]; omega

/-- The table block is the whole padded table at every point. -/
theorem tBlk_eq (V : Vals) (c : Dev nD) (t : Fin cfg1.N) : tBlk V c t = tArr V c := by
  funext y
  unfold tBlk iblk1
  rw [View.read_apply]
  show V c main_v2 _ = V c main_v2 _
  congr 1
  funext a; apply Fin.ext
  match a with
  | ⟨0, _⟩ => show win1_2.index t (0 : Fin 2) * 10112 + 1 * (y 0).val = (y 0).val; rw [(idx1_2 t).1]; omega
  | ⟨1, _⟩ => show win1_2.index t (1 : Fin 2) * 128 + 1 * (y 1).val = (y 1).val; rw [(idx1_2 t).2]; omega

/-! ## A block of the edge stage is the edge stage on the block's rows -/

/-- Row `r` of the edge block over point `t`'s input blocks is edge `e = 512·t + r` of the edge stage over the arrays:
    the feature row is row `e`; and since `512·t` is a multiple of 128,
    `256·(e / 128) + e % 128 = 1024·t + 256·(r / 128) + r % 128`, so the block's source position (and, 128 further, its
    destination position) is the column's. -/
theorem edgeBlockAt_blocks (V : Vals) (c : Dev nD) (t : Fin cfg1.N) (r : Fin 512) (f : Fin 128) (e : Fin 320000)
    (he : e.val = 512 * t.val + r.val) :
    EdgeNet.edgeBlockAt (dBlk V c t) (wBlk V c t) (tBlk V c t) (sBlk V c t) r f
      = EdgeNet.edgeAt (dArr V c) (wArr V c) (tArr V c) (sArr V c) e f := by
  have hN : cfg1.N = 625 := N_1
  have ht := t.isLt
  have hr := r.isLt
  have hA : (∑ j : Fin 20, dBlk V c t (ix2 r j) * wBlk V c t (ix2 j f))
      = ∑ j : Fin 20, dArr V c (ix2 e j) * wArr V c (ix2 j f) :=
    Finset.sum_congr rfl fun j _ => by rw [dBlk_apply V c t r j e he, wBlk_eq]
  have hS : sBlk V c t (ix2 ⟨256 * (r.val / 128) + r.val % 128, by omega⟩ 0)
      = sArr V c (ix2 ⟨256 * (e.val / 128) + e.val % 128, by have := e.isLt; omega⟩ 0) :=
    sBlk_apply V c t _ _ (by
      show 256 * (e.val / 128) + e.val % 128 = 1024 * t.val + (256 * (r.val / 128) + r.val % 128); omega)
  have hD : sBlk V c t (ix2 ⟨256 * (r.val / 128) + 128 + r.val % 128, by omega⟩ 0)
      = sArr V c (ix2 ⟨256 * (e.val / 128) + 128 + e.val % 128, by have := e.isLt; omega⟩ 0) :=
    sBlk_apply V c t _ _ (by
      show 256 * (e.val / 128) + 128 + e.val % 128 = 1024 * t.val + (256 * (r.val / 128) + 128 + r.val % 128); omega)
  unfold EdgeNet.edgeBlockAt EdgeNet.edgeAt EdgeNet.edgeLin
  rw [hA, hS, hD, tBlk_eq]

/-- What the body leaves in the output block at point `t`: the edge block over the point's input blocks. -/
theorem outsAt1_eq (V : Vals) (c : Dev nD) (t : Fin cfg1.N) :
    outsAt1 V c t = EdgeNet.edgeBlock (dBlk V c t) (wBlk V c t) (tBlk V c t) (sBlk V c t) :=
  out1_eq c (grid1.coords t) (ms1_0 t) (hs1_0 t) (ms1_1 t) (hs1_1 t) (ms1_2 t) (hs1_2 t) (ms1_3 t) (hs1_3 t) (ms1_4 t) (hs1_4 t)
    (iblk1 V c 0 t) (iblk1 V c 1 t) (iblk1 V c 2 t) (iblk1 V c 3 t)

/-! ## From the blocks to the array -/

/-- What point `t` writes back is its block (rows `512·t … 512·t + 511`) of the edge stage over the region's input arrays. -/
theorem flushed1_eq (V : Vals) (c : Dev nD) (t : Fin cfg1.N) :
    (dat1 V c).flushed 4 t
      = ((cfg1.win 4).blk t).view.read (Elt Ideal) (EdgeNet.edgeArr (dArr V c) (wArr V c) (tArr V c) (sArr V c)) := by
  have hN : cfg1.N = 625 := N_1
  have ht := t.isLt
  show (cfg1.win 4).cut (grid1.coords t) ((dat1 V c).after 4 t) = _
  rw [after1_4, outsAt1_eq]
  funext y
  have hy0 : (y 0).val < 512 := (y 0).isLt
  have hy1 : (y 1).val < 128 := (y 1).isLt
  show EdgeNet.edgeBlockAt (dBlk V c t) (wBlk V c t) (tBlk V c t) (sBlk V c t) ⟨(y 0).val, hy0⟩ ⟨(y 1).val, hy1⟩
    = EdgeNet.edgeAt (dArr V c) (wArr V c) (tArr V c) (sArr V c)
        (((cfg1.win 4).blk t).view.emb y 0) (((cfg1.win 4).blk t).view.emb y 1)
  have he : (((cfg1.win 4).blk t).view.emb y 0).val = 512 * t.val + (y 0).val := by
    show win1_4.index t (0 : Fin 2) * 512 + 1 * (y 0).val = _
    rw [(idx1_4 t).1]; omega
  have hf : ((cfg1.win 4).blk t).view.emb y 1 = ⟨(y 1).val, hy1⟩ :=
    Fin.ext (by show win1_4.index t (1 : Fin 2) * 128 + 1 * (y 1).val = (y 1).val; rw [(idx1_4 t).2]; omega)
  rw [hf]
  exact edgeBlockAt_blocks V c t _ _ _ he

/-- An index of the output array is in point `t`'s block iff each coordinate is in the block's range on its axis. -/
theorem mem_blk1_4 (t : Fin cfg1.N) (i : S320000x128.Idx) :
    i ∈ ((cfg1.win 4).blk t).view.set ↔ ∀ a : Fin 2, win1_4.index t a * S512x128.size a ≤ (i a).val
      ∧ (i a).val < win1_4.index t a * S512x128.size a + S512x128.size a := by
  show i ∈ ((View.whole main_v13).slice (win1_4.rect t)).set ↔ _
  rw [View.set_slice_whole, Rect.mem_set_unit]
  exact Iff.rfl

/-- Row `e` of the output array is in the block of point `e / 512` (`320000 = 625·512`), and every point writes its
    block back. -/
theorem cover1_4 (i : S320000x128.Idx) :
    ∃ t : Fin cfg1.N, (cfg1.win 4).flush t = true ∧ i ∈ ((cfg1.win 4).blk t).view.set := by
  have hN : cfg1.N = 625 := N_1
  have hi0 : (i 0).val < 320000 := (i 0).isLt
  have hi1 : (i 1).val < 128 := (i 1).isLt
  obtain ⟨t, ht⟩ : ∃ t : Fin cfg1.N, t.val = (i 0).val / 512 := ⟨⟨(i 0).val / 512, by omega⟩, rfl⟩
  refine ⟨t, flush1_4 t, ?_⟩
  rw [mem_blk1_4]
  intro a
  match a with
  | ⟨0, _⟩ =>
    show win1_4.index t (0 : Fin 2) * 512 ≤ (i 0).val ∧ (i 0).val < win1_4.index t (0 : Fin 2) * 512 + 512
    rw [(idx1_4 t).1]; omega
  | ⟨1, _⟩ =>
    show win1_4.index t (1 : Fin 2) * 128 ≤ (i 1).val ∧ (i 1).val < win1_4.index t (1 : Fin 2) * 128 + 128
    rw [(idx1_4 t).2]; omega

/-- The output array after the region: every written-back block is a block of one whole-array function and the blocks
    cover the array, so the array is that function. -/
theorem final1 (V : Vals) (c : Dev nD) :
    (dat1 V c).arrAt 4 cfg1.N = EdgeNet.edgeArr (V c main_arg1) (V c main_arg7) (V c main_v2) (V c main_v12) :=
  (dat1 V c).arrAt_eq_of_cover 4 (EdgeNet.edgeArr (dArr V c) (wArr V c) (tArr V c) (sArr V c))
    (fun t _ => flushed1_eq V c t) cover1_4

end Cert.KernelIdeal.Hand

end
-- ==== Proof.HostValue.lean ====
/-
  The host operations between the two regions: the node array padded with zero rows (and its change of float format, the
  identity on the extended reals), and the two index rows laid out in one column.
-/
import proofs.«414239_j6210522710114_3_alg».proof.Proof.KBasics
import Idealize.ShloMosaic.Lib.KernelVsHost

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The two layouts read index by index, over arbitrary arrays -/

section Layouts

/-- A 10000-row array padded at the end of its row axis with 112 rows of a value that is zero is the zero-padded
    table: a row below 10000 lies inside the operand (low padding 0, no interior padding, so row `r` reads row `r`),
    a row from 10000 on lies outside it on the row axis and reads the padding value. -/
theorem pad_eq_padTable (x : S10000x128.Idx → EReal) (v : S_.Idx → EReal)
    (hp : S10000x128.Pads (![0, 0] : Fin 2 → Nat) ![112, 0] ![0, 0] S10112x128) (hu : 0 < S_.numel)
    (hv : v (Shape.Idx.first hu) = 0) :
    pad S10112x128 ![0, 0] ![112, 0] ![0, 0] x v hp hu = EdgeNet.padTable x := by
  funext j
  unfold EdgeNet.padTable
  by_cases h : (j 0).val < 10000
  · rw [dif_pos h]
    exact pad_apply_of_inside _ _ _ x v hp hu j (ix2 ⟨(j 0).val, h⟩ (j 1)) (fun a => match a with
      | ⟨0, _⟩ => by show (j 0).val = 0 + (j 0).val * (0 + 1); omega
      | ⟨1, _⟩ => by show (j 1).val = 0 + (j 1).val * (0 + 1); omega)
  · rw [dif_neg h]
    refine (pad_apply_of_not_inside _ _ _ x v hp hu j (0 : Fin 2) ?_).trans hv
    rintro ⟨-, -, h3⟩
    have h3' : ((j 0).val - 0) / (0 + 1) < 10000 := h3
    apply h; omega

/-- One index row (row `o` of the two) cut into runs of 128 with a unit middle axis: position `(s, 0, l)` holds
    `E[o, 128·s + l]`. The broadcast along the new unit axis reads `(s, l)`; the two reshapes keep the row-major position
    `128·s + l`; the slice at row offset `o` reads row `o`. -/
theorem rowRuns_apply (E : S2x320000.Idx → BitVec 32) (o : Nat) (ho : o < 2)
    (hs : S2x320000.Slices ![o, 0] S1x320000) (hc1 : S1x320000.ShapeCasts S320000) (hc2 : S320000.ShapeCasts S2500x128)
    (hb : S2500x128.BroadcastsInDim S2500x1x128 (![0, 2] : Fin 2 → Fin S2500x1x128.rank))
    (s : Fin 2500) (u : Fin 1) (l : Fin 128) :
    broadcastInDim S2500x1x128 ![0, 2] hb
        (shapeCast S2500x128 (shapeCast S320000 (extractStridedSlice S1x320000 ![o, 0] E hs) hc1) hc2) (ix3 s u l)
      = E (ix2 ⟨o, ho⟩ ⟨s.val * 128 + l.val, by have := s.isLt; have := l.isLt; omega⟩) := by
  have hs' := s.isLt
  have hl := l.isLt
  have hpos : s.val * 128 + l.val < 320000 := by omega
  refine (broadcastInDim_apply _ _ _ (ix3 s u l) (ix2 s l) (fun a => match a with
    | ⟨0, _⟩ => rfl
    | ⟨1, _⟩ => rfl)).trans ?_
  refine (shapeCast_apply _ _ (ix2 s l) (ix1 ⟨s.val * 128 + l.val, hpos⟩) (by
    rw [Shape.rowMajor_val_one, Shape.rowMajor_val_two]
    show s.val * 128 + l.val = s.val * 128 + l.val
    rfl)).trans ?_
  refine (shapeCast_apply _ _ (ix1 ⟨s.val * 128 + l.val, hpos⟩) (ix2 (0 : Fin 1) ⟨s.val * 128 + l.val, hpos⟩) (by
    rw [Shape.rowMajor_val_two, Shape.rowMajor_val_one]
    show 0 * 320000 + (s.val * 128 + l.val) = s.val * 128 + l.val
    omega)).trans ?_
  exact extractStridedSlice_apply _ _ _ _ (ix2 ⟨o, ho⟩ ⟨s.val * 128 + l.val, hpos⟩) (fun a => match a with
    | ⟨0, _⟩ => by show o = o + 0; omega
    | ⟨1, _⟩ => by show s.val * 128 + l.val = 0 + (s.val * 128 + l.val); omega)

/-- The two rows' runs concatenated along the middle axis and read as one column are the stacked index column:
    position `r` of the column has the row-major position of `(r / 256, (r / 128) % 2, r % 128)` in `[2500, 2, 128]`; the
    middle coordinate picks the row, and the run `r / 256` at lane `r % 128` is column `128·(r / 256) + r % 128` of it. -/
theorem stack_eq_stackIdx (E : S2x320000.Idx → BitVec 32)
    (hs0 : S2x320000.Slices ![0, 0] S1x320000) (hs1 : S2x320000.Slices ![1, 0] S1x320000)
    (hc1 : S1x320000.ShapeCasts S320000) (hc2 : S320000.ShapeCasts S2500x128)
    (hb : S2500x128.BroadcastsInDim S2500x1x128 (![0, 2] : Fin 2 → Fin S2500x1x128.rank))
    (hcat : Shape.Concatenates [S2500x1x128, S2500x1x128] S2500x2x128 1)
    (hc3 : S2500x2x128.ShapeCasts S640000x1) :
    shapeCast S640000x1
        (concatenate S2500x2x128 1
          [⟨S2500x1x128, broadcastInDim S2500x1x128 ![0, 2] hb
              (shapeCast S2500x128 (shapeCast S320000 (extractStridedSlice S1x320000 ![0, 0] E hs0) hc1) hc2)⟩,
           ⟨S2500x1x128, broadcastInDim S2500x1x128 ![0, 2] hb
              (shapeCast S2500x128 (shapeCast S320000 (extractStridedSlice S1x320000 ![1, 0] E hs1) hc1) hc2)⟩] hcat) hc3
      = EdgeNet.stackIdx E := by
  funext j
  obtain ⟨p, q, rfl⟩ : ∃ (p : Fin 640000) (q : Fin 1), j = ix2 p q := ⟨j 0, j 1, eq_ix2 j⟩
  have hp := p.isLt
  have hq := q.isLt
  have h256 : p.val / 256 < 2500 := by omega
  have h2 : (p.val / 128) % 2 < 2 := Nat.mod_lt _ (by decide)
  have h128 : p.val % 128 < 128 := Nat.mod_lt _ (by decide)
  refine (shapeCast_apply _ hc3 (ix2 p q) (ix3 ⟨p.val / 256, h256⟩ ⟨(p.val / 128) % 2, h2⟩ ⟨p.val % 128, h128⟩) (by
    rw [Shape.rowMajor_val_three, Shape.rowMajor_val_two]
    show (p.val / 256 * 2 + p.val / 128 % 2) * 128 + p.val % 128 = p.val * 1 + q.val
    omega)).trans ?_
  unfold EdgeNet.stackIdx
  by_cases h : (p.val / 128) % 2 = 0
  · refine (concatenate_pair_apply_left _ _ _ hcat _ rfl (ix3 ⟨p.val / 256, h256⟩ (0 : Fin 1) ⟨p.val % 128, h128⟩) (fun b => by
      match b with
      | ⟨0, _⟩ => rfl
      | ⟨1, _⟩ => exact h.symm
      | ⟨2, _⟩ => rfl)).trans ?_
    refine (rowRuns_apply E 0 (by decide) hs0 hc1 hc2 hb _ _ _).trans ?_
    refine congrArg E (funext fun a => ?_)
    match a with
    | ⟨0, _⟩ => exact Fin.ext h.symm
    | ⟨1, _⟩ => exact Fin.ext rfl
  · have h1 : (p.val / 128) % 2 = 1 := by omega
    refine (concatenate_pair_apply_right _ _ _ hcat _ rfl rfl (ix3 ⟨p.val / 256, h256⟩ (0 : Fin 1) ⟨p.val % 128, h128⟩)
      (fun b hb => by
        match b with
        | ⟨0, _⟩ => rfl
        | ⟨1, _⟩ => exact absurd rfl hb
        | ⟨2, _⟩ => rfl)
      (by show 0 + 1 = (p.val / 128) % 2; omega)).trans ?_
    refine (rowRuns_apply E 1 (by decide) hs1 hc1 hc2 hb _ _ _).trans ?_
    refine congrArg E (funext fun a => ?_)
    match a with
    | ⟨0, _⟩ => exact Fin.ext h1.symm
    | ⟨1, _⟩ => exact Fin.ext rfl

end Layouts

/-! ## The contents at the second region's entry

The fold runs one constant, the two operations of the padding function and eleven layout operations over the contents the
first region leaves. Each buffer below is read off the fold at its own reference: an operation's result at its result
buffer is its function of the operands' contents, and at any other buffer what was there. -/

variable (m : (ℓ : Loc nD τ sig) → Buf (Elt Ideal) ℓ) (ρ : Dev nD → PrngReg)

/-- The padded table: the change of float format is the identity on the extended reals, and the padding value, the
    integer zero converted, is zero. -/
theorem V4_table (c : Dev nD) : V4 m ρ c main_v2 = EdgeNet.padTable (V1 m ρ c main_v0) := by
  have e : (V4 m ρ c main_v2 : S10112x128.Idx → EReal)
      = pad S10112x128 ![0, 0] ![112, 0] ![0, 0] (V1 m ρ c main_v0 : S10000x128.Idx → EReal)
          (sitofp (F := Ideal) .f32 (constantI S_ 32 0#32)) pads_S10000x128_S10112x128_01120_000 h_S_ := by
    show StableHlo.after hostOps1_2 (StableHlo.after hostOps1_1 (StableHlo.after hostOps1 (W1 m ρ c)))
      (Proc.devRef .tc main_v2) = _
    dsimp only [hostOps1_2, hostOps1_1, hostOps1]
    after_results
    rfl
  exact e.trans (pad_eq_padTable _ _ _ _ (sitofp_zero (φ := .f32)))

/-- The stacked index column, over the index array as launched. -/
theorem V4_sidx (c : Dev nD) : V4 m ρ c main_v12 = EdgeNet.stackIdx (m ((c : Thread nD τ).loc main_arg2)) := by
  have e : (V4 m ρ c main_v12 : S640000x1.Idx → BitVec 32)
      = shapeCast S640000x1
          (concatenate S2500x2x128 1
            [⟨S2500x1x128, broadcastInDim S2500x1x128 ![0, 2] bcast_S2500x128_S2500x1x128_0_2
                (shapeCast S2500x128 (shapeCast S320000 (extractStridedSlice S1x320000 ![0, 0]
                  (V1 m ρ c main_arg2 : S2x320000.Idx → BitVec 32) slices_S2x320000_S1x320000_0_0)
                  shapeCasts_S1x320000_S320000) shapeCasts_S320000_S2500x128)⟩,
             ⟨S2500x1x128, broadcastInDim S2500x1x128 ![0, 2] bcast_S2500x128_S2500x1x128_0_2
                (shapeCast S2500x128 (shapeCast S320000 (extractStridedSlice S1x320000 ![1, 0]
                  (V1 m ρ c main_arg2 : S2x320000.Idx → BitVec 32) slices_S2x320000_S1x320000_1_0)
                  shapeCasts_S1x320000_S320000) shapeCasts_S320000_S2500x128)⟩]
            concatenates_S2500x1x128_S2500x1x128_S2500x2x128_d1) shapeCasts_S2500x2x128_S640000x1 := by
    show StableHlo.after hostOps1_2 (StableHlo.after hostOps1_1 (StableHlo.after hostOps1 (W1 m ρ c)))
      (Proc.devRef .tc main_v12) = _
    dsimp only [hostOps1_2, hostOps1_1, hostOps1]
    after_results
    rfl
  refine e.trans ((stack_eq_stackIdx _ _ _ _ _ _ _ _).trans ?_)
  exact congrArg EdgeNet.stackIdx (W1_of_ne m ρ c main_arg2 (by decide))

/-- The edge features are as launched: the first region has no window on them and no operation writes them. -/
theorem V4_arg1 (c : Dev nD) : V4 m ρ c main_arg1 = m ((c : Thread nD τ).loc main_arg1) := by
  show StableHlo.after hostOps1_2 (StableHlo.after hostOps1_1 (StableHlo.after hostOps1 (W1 m ρ c)))
    (Proc.devRef .tc main_arg1) = _
  dsimp only [hostOps1_2, hostOps1_1, hostOps1]
  after_results
  exact W1_of_ne m ρ c main_arg1 (by decide)

/-- The edge weights are as launched, for the same reason. -/
theorem V4_arg7 (c : Dev nD) : V4 m ρ c main_arg7 = m ((c : Thread nD τ).loc main_arg7) := by
  show StableHlo.after hostOps1_2 (StableHlo.after hostOps1_1 (StableHlo.after hostOps1 (W1 m ρ c)))
    (Proc.devRef .tc main_arg7) = _
  dsimp only [hostOps1_2, hostOps1_1, hostOps1]
  after_results
  exact W1_of_ne m ρ c main_arg7 (by decide)

end Cert.KernelIdeal.Hand

end
-- ==== Proof.KernelValue.lean ====
/-
  The kernel program's result: the edge stage over the padded node table and the stacked index column, which is
  `EdgeNet.G` of the argument arrays when every index is below 10000.

  Region 0 leaves the node perceptron's array; the host operations pad it with zero rows and lay the indices out in one
  column; region 1 leaves the edge stage over those; the arguments are never written. With every index below 10000 the
  one-hot reads are the rows themselves (`EdgeNet.edgeArr_eq_G`).
-/
import proofs.«414239_j6210522710114_3_alg».proof.Proof.Region0Value
import proofs.«414239_j6210522710114_3_alg».proof.Proof.Region1Value
import proofs.«414239_j6210522710114_3_alg».proof.Proof.HostValue
import proofs.«414239_j6210522710114_3_alg».proof.Proof.RunResult

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result buffer's contents at the last boundary, as `EdgeNet.G` of the launch contents of the arguments. -/
theorem result_eq (c : Dev nD) (hE : ∀ i, (m ((c : Thread nD τ).loc main_arg2) i).toNat < 10000) :
    W5 m ρ c (Proc.devRef .tc main_v13) = EdgeNet.G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  rw [W5_arr m ρ c 4, final1 (V4 m ρ) c, V4_table, V4_sidx, V4_arg1, V4_arg7]
  rw [show V1 m ρ c main_v0 = (dat0 (V0 m ρ) c).arrAt 5 cfg0.N from W1_arr m ρ c 5, final0 (V0 m ρ) c]
  exact EdgeNet.edgeArr_eq_G _ _ _ _ _ _ _ _ hE

/-- The run, read: every weakly fair execution terminates with the result array at `EdgeNet.G` of the arguments, the
    arguments unchanged. -/
theorem run (hE : ∀ (c : Dev nD) i, (m ((c : Thread nD τ).loc main_arg2) i).toNat < 10000) :
    θ_run defs (onTc (τ := τ) (main (F := Ideal))) ⟨m, fun _ => 0, ρ⟩ (fun r => ∀ c : Dev nD,
      r.2.mem ((c.tc : Thread nD τ).loc main_v13) = EdgeNet.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c (hE c)), (h c).2⟩) (run_result m ρ)

end Cert.KernelIdeal.Hand

end
-- ==== Proof.RefNode.lean ====
/-
  The reference's node perceptron (its operations up to the second bias) is `EdgeNet.nodeArr`.
-/
import proofs.«414239_j6210522710114_3_alg».proof.Proof.Gen.ReferenceIdeal.Read
import proofs.«414239_j6210522710114_3_alg».proof.Proof.Spec
import Idealize.ShloMosaic.Lib.IdealHost

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The left operand of the first product is read at row `n`, column `j`, whatever the second product's column is. -/
private theorem lidx_first (n : Fin 10000) (f k j : Fin 128) :
    lidx_main_v0 (lidx_main_v5 (ix2 n f) k) j = ix2 n j :=
  funext fun a => Fin.ext (by match a with | ⟨0, _⟩ => rfl | ⟨1, _⟩ => rfl)

/-- The right operand of the first product is read at row `j`, column `k`. -/
private theorem ridx_first (n : Fin 10000) (f k j : Fin 128) :
    ridx_main_v0 (lidx_main_v5 (ix2 n f) k) j = ix2 j k :=
  funext fun a => Fin.ext (by match a with | ⟨0, _⟩ => rfl | ⟨1, _⟩ => rfl)

/-- The first bias, broadcast twice, is read at `k`. -/
private theorem bias_first (n : Fin 10000) (f k : Fin 128) :
    idx_main_v1 (idx_main_v2 (lidx_main_v5 (ix2 n f) k)) = ix1 k :=
  funext fun a => Fin.ext (by match a with | ⟨0, _⟩ => rfl)

/-- The right operand of the second product is read at row `k`, column `f`. -/
private theorem ridx_second (n : Fin 10000) (f k : Fin 128) :
    ridx_main_v5 (ix2 n f) k = ix2 k f :=
  funext fun a => Fin.ext (by match a with | ⟨0, _⟩ => rfl | ⟨1, _⟩ => rfl)

/-- The second bias, broadcast twice, is read at `f`. -/
private theorem bias_second (n : Fin 10000) (f : Fin 128) :
    idx_main_v6 (idx_main_v7 (ix2 n f)) = ix1 f :=
  funext fun a => Fin.ext (by match a with | ⟨0, _⟩ => rfl)

theorem ref_node (x0 : EdgeNet.Mat 10000 128) (x3 : EdgeNet.Mat 128 128) (x4 : EdgeNet.Vec1 128) (x5 : EdgeNet.Mat 128 128) (x6 : EdgeNet.Vec1 128) :
    val_main_v8 (F := Ideal) x0 x3 x4 x5 x6 = EdgeNet.nodeArr x0 x3 x4 x5 x6 := by
  funext i
  obtain ⟨n, f, rfl⟩ : ∃ (n : Fin 10000) (f : Fin 128), i = ix2 n f := ⟨i 0, i 1, eq_ix2 i⟩
  -- every operation read at an index, outermost first
  simp only [val_main_v8_apply, val_main_v5_apply, val_main_v7_apply, val_main_v6_apply, val_main_v4_apply,
    val_main_call0_v5_apply, val_main_call0_v4_apply, val_main_call0_cst_0_apply, val_main_call0_v3_apply,
    val_main_call0_v2_apply, val_main_call0_cst_apply, val_main_call0_v1_apply, val_main_call0_v0_apply,
    val_main_v3_apply, val_main_v2_apply, val_main_v1_apply, val_main_v0_apply]
  -- the indices read, as pairs of coordinates
  simp only [lidx_first, ridx_first, bias_first, ridx_second, bias_second]
  -- the operations on the extended reals; the pattern 0x3F800000 is one
  simp only [Ideal.addf_def, Ideal.mulf_def, Ideal.hostDivf_def, Ideal.hostUnary_exp_def, Ideal.hostNegf_def,
    Ideal.negf_def, Ideal.ofBits_def, Ideal.ofBits_one_f32]
  -- the specification, unfolded: silu h = h * (1 / (1 + e^(-h)))
  show _ = EdgeNet.node x0 x3 x4 x5 x6 n f
  unfold EdgeNet.node EdgeNet.silu EdgeNet.hidden Ideal.logistic
  rfl

end Cert.ReferenceIdeal.RefValue

end
-- ==== Proof.RefValue.lean ====
/-
  The reference's result is `EdgeNet.G` when every index is below 10000.

  The reference multiplies three arrays: the edge features' linear map (a plain product of a 320000×20 by a 20×128
  array), and two gathers of rows of the node array, one at the source indices (row 0 of the index array) and one at
  the destination indices (row 1). Each gather reads, at edge `e` and feature `f`, the node array at row "the start
  index of `e`, read as a signed integer and clamped into [0, 9999]", column `f`. The start index of `e` is the
  index word `w` itself when `w` is not negative, and `w + 10000` when it is (the wrap-around of a negative index).
  A word below 10000 is not negative, reads the same signed and unsigned, and is not changed by the clamp: the row is
  `EdgeNet.rowOf w`.
-/
import proofs.«414239_j6210522710114_3_alg».proof.Proof.RefNode
import Idealize.ShloMosaic.Lib.StableHlo.Predicate

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## The gather of whole rows, read at an index -/

/-- A gather of whole rows: operand [N × C], start indices an [n × 1] column, result [n × C]; axis 0 of the operand is
    collapsed and start-indexed, axis 1 of the result is the offset axis. Result element (e, f) is the operand at row
    "start index e, read signed and clamped into [0, N − 1]", column f. -/
theorem gather_rows {α : Type} {N n C w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (f : Fin C) :
    Host.gather d x idx (ix2 e f) = x (ix2 ⟨min (idx (ix2 e 0)).toInt.toNat (N - 1), by omega⟩ f) := by
  unfold Host.gather
  congr 1
  -- the lists of axes, member by member
  have hoff1 : ∀ a ∈ d.offsetDims, a = (1 : Fin 2) := by
    rw [hoff]; intro a ha; exact List.mem_singleton.mp ha
  have hbd0 : ∀ a ∈ d.batchDims, a = (0 : Fin 2) := by
    intro a ha
    have h2 : a ∉ d.offsetDims := (List.mem_filter.mp ha).2 |> fun h => by simpa using h
    rw [hoff] at h2
    match a with
    | ⟨0, _⟩ => rfl
    | ⟨1, _⟩ => exact absurd (List.mem_singleton.mpr rfl) h2
  have hb : ∀ a : Fin 2, a ∉ d.operandBatchingDims := by intro a; rw [hob]; exact List.not_mem_nil
  funext a
  apply Fin.ext
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e f) idx 0 + d.batchCoord (ix2 e f) 0 + d.offCoord (ix2 e f) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm]
    have hsi : d.siIdx (ix2 e f) ⟨List.idxOf (0 : Fin 2) d.startIndexMap, List.idxOf_lt_length_iff.2 hm⟩ = ix2 e 0 := by
      funext b
      match b with
      | ⟨0, _⟩ =>
        unfold GatherDims.siIdx
        rw [dif_neg (by rw [hivd]; simp)]
        unfold GatherDims.siCoord
        apply Fin.ext
        simp only [Fin.val_cast]
        rw [hbd0 _ (List.getElem_mem _)]
      | ⟨1, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>
    have hk : (1 : Fin 2) ∈ d.sKept := by rw [GatherDims.mem_sKept, hcoll, hob]; simp
    have hm : (1 : Fin 2) ∉ d.startIndexMap := by rw [hsim]; simp
    show d.start (ix2 e f) idx 1 + d.batchCoord (ix2 e f) 1 + d.offCoord (ix2 e f) 1 = f.val
    rw [GatherDims.batchCoord_eq_zero _ _ _ (hb 1)]
    unfold GatherDims.start GatherDims.offCoord
    rw [dif_neg hm, dif_pos hk]
    simp only [Nat.zero_add, Nat.add_zero]
    rw [hoff1 _ (List.getElem_mem _)]

/-! ## Words below 10000 -/

/-- A word below 10000 is not negative: the signed comparison with zero answers `0`. -/
theorem slt_zero_of_small (w : BitVec 32) (hw : w.toNat < 10000) : IntOp.cmpi .slt w 0#32 = 0#1 := by
  apply eq_zero_of_ne_one
  intro h
  have h2 := (StableHlo.Predicate.slt_iff_toNat (a := w) (b := 0#32) (by omega) (by decide)).mp h
  exact absurd h2 (Nat.not_lt_zero _)

/-- The wrap-around of a negative index leaves a word below 10000 as it is. -/
theorem wrap_of_small (w : BitVec 32) (hw : w.toNat < 10000) :
    Scalar.select (IntOp.cmpi .slt w 0#32) (IntOp.addi w 10000#32) w = w := by
  rw [slt_zero_of_small w hw, select_zero]

/-- A word `v` equal to a word `w` below 10000, read signed and clamped into [0, 9999], is `w`'s value: the row
    `EdgeNet.rowOf w`. -/
theorem clamp_of_small (v w : BitVec 32) (hv : v = w) (hw : w.toNat < 10000) (h : min v.toInt.toNat (10000 - 1) < 10000) :
    (⟨min v.toInt.toNat (10000 - 1), h⟩ : Fin 10000) = EdgeNet.rowOf w := by
  subst hv
  apply Fin.ext
  show min v.toInt.toNat (10000 - 1) = v.toNat % 10000
  rw [StableHlo.Predicate.toInt_eq_toNat_of_lt (a := v) (by omega), Int.toNat_natCast, Nat.mod_eq_of_lt hw]
  omega

/-! ## The start indices -/

/-- The first gather's start index at edge `e` is the source index `E[0, e]` … -/
theorem start_src (x2 : EdgeNet.IMat 2 320000) (hE : ∀ i, (x2 i).toNat < 10000) (e : Fin 320000) :
    val_main_v17 (F := Ideal) x2 (ix2 e 0) = x2 (ix2 0 e) := by
  have hi : idx_main_v10 (idx_main_v11 (idx_main_v17 (ix2 e 0))) = ix2 0 e := by
    funext a
    match a with
    | ⟨0, _⟩ => rfl
    | ⟨1, _⟩ => exact Fin.ext (Nat.mod_eq_of_lt e.isLt)
  rw [val_main_v17_apply, val_main_v16_apply, val_main_v13_apply, val_main_v15_apply, val_main_v11_apply,
    val_main_v10_apply, val_main_v12_apply, val_main_c_apply, val_main_v14_apply, val_main_c_0_apply, hi]
  exact wrap_of_small _ (hE _)

/-- … and the second gather's the destination index `E[1, e]`. -/
theorem start_dst (x2 : EdgeNet.IMat 2 320000) (hE : ∀ i, (x2 i).toNat < 10000) (e : Fin 320000) :
    val_main_v26 (F := Ideal) x2 (ix2 e 0) = x2 (ix2 1 e) := by
  have hi : idx_main_v19 (idx_main_v20 (idx_main_v26 (ix2 e 0))) = ix2 1 e := by
    funext a
    match a with
    | ⟨0, _⟩ => rfl
    | ⟨1, _⟩ => exact Fin.ext (Nat.mod_eq_of_lt e.isLt)
  rw [val_main_v26_apply, val_main_v25_apply, val_main_v22_apply, val_main_v24_apply, val_main_v20_apply,
    val_main_v19_apply, val_main_v21_apply, val_main_c_1_apply, val_main_v23_apply, val_main_c_2_apply, hi]
  exact wrap_of_small _ (hE _)

/-! ## The two gathers and the edge product -/

/-- The gather at the source indices reads the source node's features. -/
theorem gather_src (x0 : EdgeNet.Mat 10000 128) (x2 : EdgeNet.IMat 2 320000) (x3 : EdgeNet.Mat 128 128)
    (x4 : EdgeNet.Vec1 128) (x5 : EdgeNet.Mat 128 128) (x6 : EdgeNet.Vec1 128)
    (hE : ∀ i, (x2 i).toNat < 10000) (e : Fin 320000) (f : Fin 128) :
    val_main_v18 (F := Ideal) x0 x2 x3 x4 x5 x6 (ix2 e f) = EdgeNet.node x0 x3 x4 x5 x6 (EdgeNet.rowOf (x2 (ix2 0 e))) f := by
  unfold val_main_v18
  rw [ref_node]
  refine (gather_rows (by decide) gather_S10000x128_S320000x1_S320000x128_1_0_n_n_0_1_1128 rfl rfl rfl rfl rfl
    (EdgeNet.nodeArr x0 x3 x4 x5 x6) (val_main_v17 (F := Ideal) x2) e f).trans ?_
  show EdgeNet.nodeArr x0 x3 x4 x5 x6 (ix2 _ f) = _
  rw [clamp_of_small _ _ (start_src x2 hE e) (hE _)]
  rfl

/-- The gather at the destination indices reads the destination node's features. -/
theorem gather_dst (x0 : EdgeNet.Mat 10000 128) (x2 : EdgeNet.IMat 2 320000) (x3 : EdgeNet.Mat 128 128)
    (x4 : EdgeNet.Vec1 128) (x5 : EdgeNet.Mat 128 128) (x6 : EdgeNet.Vec1 128)
    (hE : ∀ i, (x2 i).toNat < 10000) (e : Fin 320000) (f : Fin 128) :
    val_main_v27 (F := Ideal) x0 x2 x3 x4 x5 x6 (ix2 e f) = EdgeNet.node x0 x3 x4 x5 x6 (EdgeNet.rowOf (x2 (ix2 1 e))) f := by
  unfold val_main_v27
  rw [ref_node]
  refine (gather_rows (by decide) gather_S10000x128_S320000x1_S320000x128_1_0_n_n_0_1_1128 rfl rfl rfl rfl rfl
    (EdgeNet.nodeArr x0 x3 x4 x5 x6) (val_main_v26 (F := Ideal) x2) e f).trans ?_
  show EdgeNet.nodeArr x0 x3 x4 x5 x6 (ix2 _ f) = _
  rw [clamp_of_small _ _ (start_dst x2 hE e) (hE _)]
  rfl

/-- The edge features' product read at (e, f) is `EdgeNet.edgeLin`. -/
theorem edge_lin (x1 : EdgeNet.Mat 320000 20) (x7 : EdgeNet.Mat 20 128) (e : Fin 320000) (f : Fin 128) :
    val_main_v9 (F := Ideal) x1 x7 (ix2 e f) = EdgeNet.edgeLin x1 x7 e f := by
  rw [val_main_v9_apply]
  unfold EdgeNet.edgeLin
  refine Finset.sum_congr rfl fun k _ => ?_
  have hl : lidx_main_v9 (ix2 e f) k = ix2 e k := by
    funext a
    match a with
    | ⟨0, _⟩ => rfl
    | ⟨1, _⟩ => rfl
  have hr : ridx_main_v9 (ix2 e f) k = ix2 k f := by
    funext a
    match a with
    | ⟨0, _⟩ => rfl
    | ⟨1, _⟩ => rfl
  rw [hl, hr]

/-! ## The result -/

theorem ref_eq_G (x0 : EdgeNet.Mat 10000 128) (x1 : EdgeNet.Mat 320000 20) (x2 : EdgeNet.IMat 2 320000) (x3 : EdgeNet.Mat 128 128)
    (x4 : EdgeNet.Vec1 128) (x5 : EdgeNet.Mat 128 128) (x6 : EdgeNet.Vec1 128) (x7 : EdgeNet.Mat 20 128)
    (hE : ∀ i, (x2 i).toNat < 10000) :
    val_main_v29 (F := Ideal) x0 x1 x2 x3 x4 x5 x6 x7 = EdgeNet.G x0 x1 x2 x3 x4 x5 x6 x7 := by
  funext i
  obtain ⟨e, f, rfl⟩ : ∃ e f, i = ix2 e f := ⟨i 0, i 1, eq_ix2 i⟩
  rw [val_main_v29_apply, val_main_v28_apply, edge_lin, gather_src x0 x2 x3 x4 x5 x6 hE, gather_dst x0 x2 x3 x4 x5 x6 hE]
  rfl

end Cert.ReferenceIdeal.RefValue

end
-- ==== Proof.PreRange.lean ====
/-
  The precondition's two integer conjuncts, read back: every entry of the index array is a word in [0, 10000) (as a
  signed integer), hence below 10000 as a natural number.

  The printed precondition ends `(… ∧ all (E ≥ 0)) ∧ all (E < 10000)`; an and-reduction that is 1 had a 1 at every entry,
  and a word that is at least 0 and below 10000 as a signed integer is below 10000 unsigned.
-/
import proofs.«414239_j6210522710114_3_alg».proof.Pre_finite_inputs
import proofs.«414239_j6210522710114_3_alg».proof.Proof.Spec
import Idealize.ShloMosaic.Lib.ReduceAll
import Idealize.ShloMosaic.Lib.StableHlo.Predicate

noncomputable section

namespace Cert.Proof.Range

open Idealize.ShloMosaic Idealize.ShloMosaic.ValueIdx Idealize.ShloMosaic.StableHlo.Predicate
open Cert.Pre_finite_inputs

/-- A word that is at least 0 and below 10000 as a signed integer is below 10000 as a natural number. -/
theorem toNat_lt (w : BitVec 32) (h0 : IntOp.cmpi .sge w (0#32) = 1#1) (h1 : IntOp.cmpi .slt w (10000#32) = 1#1) :
    w.toNat < 10000 := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- From the printed precondition being all ones: every index is below 10000. Only the last two conjuncts are opened. -/
theorem range_of_fn {F : FTy → Type} [FloatOps F] [Cert.Pre_finite_inputs.Facts]
    (a0 : FVec F S10000x128 .f32) (a1 : FVec F S320000x20 .f32) (a2 : IVec S2x320000 32) (a3 : FVec F S128x128 .f32)
    (a4 : FVec F S128 .f32) (a5 : FVec F S128x128 .f32) (a6 : FVec F S128 .f32) (a7 : FVec F S20x128 .f32)
    (h : Cert.Pre_finite_inputs.fn (F := F) a0 a1 a2 a3 a4 a5 a6 a7 = fun _ => 1#1) : ∀ i, (a2 i).toNat < 10000 := by
  intro i
  have e := congrFun h ix0
  unfold Cert.Pre_finite_inputs.fn Cert.Pre_finite_inputs.fn_part1 Cert.Pre_finite_inputs.fn_part2 at e
  dsimp only at e
  obtain ⟨h1, hlt⟩ := IntOp.andi_eq_one.1 e
  obtain ⟨_, hge⟩ := IntOp.andi_eq_one.1 h1
  haveI : Subsingleton S_.Idx := ⟨fun a b => funext fun d => d.elim0⟩
  have g := Host.reduce_andi_all _ _ _ _ _ hge i
  have l := Host.reduce_andi_all _ _ _ _ _ hlt i
  exact toNat_lt _ g l

end Cert.Proof.Range

end
-- ==== Proof.lean ====
/-
  The certificate of the edge-interaction network: a Pallas kernel program (a node perceptron in one pallas_call, then an
  edge stage in a second one that gathers node rows by a one-hot matrix product over a zero-padded table) against its jnp
  reference (the same perceptron, a plain gather), equal over the extended reals.

  Both programs compute `out e f = (Σⱼ dist[e,j]·We[j,f]) · node (src e) f · node (dst e) f` with
  `node n f = Σₖ silu (Σⱼ x[n,j]·W1[j,k] + b1[k]) · W2[k,f] + b2[f]` (`EdgeNet.G`, Proof/Spec.lean). The kernel's changes of float
  format are the identity on the extended reals and its `tpu.logistic` is the reference's `1 / (1 + e^(-h))`. The kernel
  reads a node row as `Σₙ [idx = n] · table[n, f]` over a table padded with zero rows to 10112 rows; the reference reads
  row `idx` after wrapping a negative index and clamping. The two agree exactly when every index is in [0, 10000): the
  precondition's two integer conjuncts (the indices in range of the array they index), read back in Proof/PreRange.lean.
  The float finiteness conjuncts are not used: on the extended reals `0 · x = 0` for every `x`, so the indicator sum has
  one term whatever the table holds.

  The frames of the two kernel programs are the generated ones; the reference's is its generated run with the result
  dropped; the ideal pass rewrote nothing, so `preserves` is `True`.
-/
import proofs.«414239_j6210522710114_3_alg».proof.Defs
import proofs.«414239_j6210522710114_3_alg».proof.Proof.Gen.Kernel
import proofs.«414239_j6210522710114_3_alg».proof.Proof.Gen.Kernel.Skeleton
import proofs.«414239_j6210522710114_3_alg».proof.Proof.Gen.Kernel.Loops
import proofs.«414239_j6210522710114_3_alg».proof.Proof.Gen.Kernel.Launch
import proofs.«414239_j6210522710114_3_alg».proof.Proof.Gen.Kernel.Points
import proofs.«414239_j6210522710114_3_alg».proof.Proof.Gen.Kernel.Frame
import proofs.«414239_j6210522710114_3_alg».proof.Proof.Gen.KernelIdeal
import proofs.«414239_j6210522710114_3_alg».proof.Proof.Gen.KernelIdeal.Skeleton
import proofs.«414239_j6210522710114_3_alg».proof.Proof.Gen.KernelIdeal.Loops
import proofs.«414239_j6210522710114_3_alg».proof.Proof.Gen.KernelIdeal.Launch
import proofs.«414239_j6210522710114_3_alg».proof.Proof.Gen.KernelIdeal.Points
import proofs.«414239_j6210522710114_3_alg».proof.Proof.Gen.KernelIdeal.Frame
import proofs.«414239_j6210522710114_3_alg».proof.Proof.Gen.ReferenceIdeal
import proofs.«414239_j6210522710114_3_alg».proof.Proof.Gen.ReferenceIdeal.Run
import proofs.«414239_j6210522710114_3_alg».proof.Proof.Gen.ReferenceIdeal.Read
import proofs.«414239_j6210522710114_3_alg».proof.Proof.Gen.Pre_finite_inputs
import proofs.«414239_j6210522710114_3_alg».proof.Proof.KernelValue
import proofs.«414239_j6210522710114_3_alg».proof.Proof.RefValue
import proofs.«414239_j6210522710114_3_alg».proof.Proof.PreRange
import Idealize.ShloMosaic.Adequacy
import Idealize.ShloMosaic.Init

noncomputable section

namespace Cert.Proof

open Idealize.ShloMosaic Idealize.SL.Sem

/-- The word-level kernel program runs and leaves its arguments unchanged: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at `EdgeNet.G` of the (agreeing) arguments: the kernel's run read through its two
    regions, the reference's generated run read one operation at a time, the indices in range by the precondition. -/
theorem algebraic : Cert.algebraic_KernelIdeal_ReferenceIdeal := by
  intro m ρ m' ρ' hpre hagree
  have hE : ∀ (c : Dev Cert.KernelIdeal.nD) i,
      (m ((c.tc : Thread Cert.KernelIdeal.nD Cert.KernelIdeal.τ).loc Cert.KernelIdeal.main_arg2) i).toNat < 10000 :=
    fun c => Cert.Proof.Range.range_of_fn _ _ _ _ _ _ _ _ (hpre c)
  refine ⟨_, Cert.KernelIdeal.Hand.run m ρ hE, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.ReferenceIdeal.RefValue.ref_eq_G _ _ _ _ _ _ _ _ (hE c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
